-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x384x56x56 : Shape := ⟨4, ![8, 384, 56, 56]⟩
abbrev S384x384 : Shape := ⟨2, ![384, 384]⟩
abbrev S_ : Shape := ⟨0, ![]⟩

class Facts : Prop where
  bcast_S_S8x384x56x56 : S_.BroadcastsInDim S8x384x56x56 (![] : Fin 0 → Fin S8x384x56x56.rank)
  reducesTo_S8x384x56x56_S_d0_1_2_3 : S8x384x56x56.ReducesTo [0, 1, 2, 3] S_
  h_S_ : 0 < S_.numel
  bcast_S_S384x384 : S_.BroadcastsInDim S384x384 (![] : Fin 0 → Fin S384x384.rank)
  reducesTo_S384x384_S_d0_1 : S384x384.ReducesTo [0, 1] S_

variable [Facts]

def fn {F : FTy → Type} [FloatOps F] (main_arg0 : FVec F S8x384x56x56 .f32) (main_arg1 : FVec F S384x384 .f32) (main_arg2 : FVec F S384x384 .f32) : IVec S_ 1 :=
  let main_v0 : FVec F S8x384x56x56 .f32 := Host.absf main_arg0
  let main_cst : FVec F S_ .f32 := constant S_ .f32 0x7F800000#32
  let main_v1 : FVec F S8x384x56x56 .f32 := broadcastInDim S8x384x56x56 ![] bcast_S_S8x384x56x56 main_cst
  let main_v2 : IVec S8x384x56x56 1 := cmpf .olt main_v0 main_v1
  let main_c : IVec S_ 1 := constantI S_ 1 1#1
  let main_v3 : IVec S_ 1 := (fun x v => Host.reduce IntOp.andi x v reducesTo_S8x384x56x56_S_d0_1_2_3 h_S_) main_v2 main_c
  let main_v4 : FVec F S384x384 .f32 := Host.absf main_arg1
  let main_cst_0 : FVec F S_ .f32 := constant S_ .f32 0x7F800000#32
  let main_v5 : FVec F S384x384 .f32 := broadcastInDim S384x384 ![] bcast_S_S384x384 main_cst_0
  let main_v6 : IVec S384x384 1 := cmpf .olt main_v4 main_v5
  let main_c_1 : IVec S_ 1 := constantI S_ 1 1#1
  let main_v7 : IVec S_ 1 := (fun x v => Host.reduce IntOp.andi x v reducesTo_S384x384_S_d0_1 h_S_) main_v6 main_c_1
  let main_v8 : IVec S_ 1 := andi main_v3 main_v7
  let main_v9 : FVec F S384x384 .f32 := Host.absf main_arg2
  let main_cst_2 : FVec F S_ .f32 := constant S_ .f32 0x7F800000#32
  let main_v10 : FVec F S384x384 .f32 := broadcastInDim S384x384 ![] bcast_S_S384x384 main_cst_2
  let main_v11 : IVec S384x384 1 := cmpf .olt main_v9 main_v10
  let main_c_3 : IVec S_ 1 := constantI S_ 1 1#1
  let main_v12 : IVec S_ 1 := (fun x v => Host.reduce IntOp.andi x v reducesTo_S384x384_S_d0_1 h_S_) main_v11 main_c_3
  let main_v13 : IVec S_ 1 := andi main_v8 main_v12
  main_v13
-- ==== Kernel.lean ====
abbrev S8x384x56x56 : Shape := ⟨4, ![8, 384, 56, 56]⟩
abbrev S384x384 : Shape := ⟨2, ![384, 384]⟩
abbrev S8x384x3136 : Shape := ⟨3, ![8, 384, 3136]⟩
abbrev S1x384x3136 : Shape := ⟨3, ![1, 384, 3136]⟩
abbrev S384x3136 : Shape := ⟨2, ![384, 3136]⟩
abbrev S1x384x256 : Shape := ⟨3, ![1, 384, 256]⟩
abbrev S384x256 : Shape := ⟨2, ![384, 256]⟩
abbrev S1x384x64 : Shape := ⟨3, ![1, 384, 64]⟩
abbrev S384x64 : Shape := ⟨2, ![384, 64]⟩
abbrev S256x3136 : Shape := ⟨2, ![256, 3136]⟩
abbrev S256 : Shape := ⟨1, ![256]⟩
abbrev S256x1 : Shape := ⟨2, ![256, 1]⟩
abbrev S1x256 : Shape := ⟨2, ![1, 256]⟩
abbrev S64x3136 : Shape := ⟨2, ![64, 3136]⟩
abbrev S64 : Shape := ⟨1, ![64]⟩
abbrev S64x1 : Shape := ⟨2, ![64, 1]⟩
abbrev S1x64 : Shape := ⟨2, ![1, 64]⟩

abbrev nBuf : Space → Nat
  | .hbm => 9
  | .vmem => 7
  | .smem => 0
  | _ => 0

abbrev bufTy : (tb : Table) → Fin (tcTables nBuf tb) → BufTy
  | .hbm, ⟨0, _⟩ => ⟨S8x384x56x56, .f32⟩
  | .hbm, ⟨1, _⟩ => ⟨S384x384, .f32⟩
  | .hbm, ⟨2, _⟩ => ⟨S384x384, .f32⟩
  | .hbm, ⟨3, _⟩ => ⟨S8x384x56x56, .bf16⟩
  | .hbm, ⟨4, _⟩ => ⟨S8x384x3136, .bf16⟩
  | .hbm, ⟨5, _⟩ => ⟨S384x384, .bf16⟩
  | .hbm, ⟨6, _⟩ => ⟨S384x384, .bf16⟩
  | .hbm, ⟨7, _⟩ => ⟨S8x384x3136, .f32⟩
  | .hbm, ⟨8, _⟩ => ⟨S8x384x56x56, .f32⟩
  | .local _ .vmem, ⟨0, _⟩ => ⟨S1x384x3136, .bf16⟩
  | .local _ .vmem, ⟨1, _⟩ => ⟨S1x384x3136, .bf16⟩
  | .local _ .vmem, ⟨2, _⟩ => ⟨S384x384, .bf16⟩
  | .local _ .vmem, ⟨3, _⟩ => ⟨S384x384, .bf16⟩
  | .local _ .vmem, ⟨4, _⟩ => ⟨S1x384x3136, .f32⟩
  | .local _ .vmem, ⟨5, _⟩ => ⟨S1x384x3136, .f32⟩
  | .local _ .vmem, ⟨6, _⟩ => ⟨S384x3136, .bf16⟩
  | _, _ => ⟨S8x384x56x56, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32 : BitVec 32 := 0#32
  let c12_i32 : BitVec 32 := 12#32
  let v4 : BitVec 32 := Scalar.addi c0_i32 c12_i32
  let c1_i32 : BitVec 32 := 1#32
  ⟨c0_i32, v4, c1_i32⟩
def k0_mult1 (k0_t1 : Fin k0_t1_loop.trips) : BitVec 32 :=
  let c0_i32_30 : BitVec 32 := 0#32
  let c0_i32 : BitVec 32 := 0#32
  let c1_i32 : BitVec 32 := 1#32
  let arg6 : BitVec 32 := Scf.iv c0_i32 c1_i32 k0_t1
  let c1_i32_29 : BitVec 32 := 1#32
  let v38 : BitVec 32 := Scalar.muli arg6 c1_i32_29
  let v39 : BitVec 32 := Scalar.addi c0_i32_30 v38
  let c256_i32 : BitVec 32 := 256#32
  let v40 : BitVec 32 := Scalar.muli v39 c256_i32
  v40
def k0_off1 (k0_t1 : Fin k0_t1_loop.trips) : Fin 3 → Nat :=
  let c0_31 : Index := 0#32
  let c0_32 : Index := 0#32
  let c0_i32_30 : BitVec 32 := 0#32
  let c0_i32 : BitVec 32 := 0#32
  let c1_i32 : BitVec 32 := 1#32
  let arg6 : BitVec 32 := Scf.iv c0_i32 c1_i32 k0_t1
  let c1_i32_29 : BitVec 32 := 1#32
  let v38 : BitVec 32 := Scalar.muli arg6 c1_i32_29
  let v39 : BitVec 32 := Scalar.addi c0_i32_30 v38
  let c256_i32 : BitVec 32 := 256#32
  let v40 : BitVec 32 := Scalar.muli v39 c256_i32
  let v41 : BitVec 32 := v40
  let v42 : Index := Scalar.indexCast v41
  ![0, 0, v42.toNat]
def k0_off2 (k0_t1 : Fin k0_t1_loop.trips) : Fin 2 → Nat :=
  let c0_34 : Index := 0#32
  let c0_i32_30 : BitVec 32 := 0#32
  let c0_i32 : BitVec 32 := 0#32
  let c1_i32 : BitVec 32 := 1#32
  let arg6 : BitVec 32 := Scf.iv c0_i32 c1_i32 k0_t1
  let c1_i32_29 : BitVec 32 := 1#32
  let v38 : BitVec 32 := Scalar.muli arg6 c1_i32_29
  let v39 : BitVec 32 := Scalar.addi c0_i32_30 v38
  let c256_i32 : BitVec 32 := 256#32
  let v40 : BitVec 32 := Scalar.muli v39 c256_i32
  let v41 : BitVec 32 := v40
  let v47 : Index := Scalar.indexCast v41
  ![0, v47.toNat]
@[reducible] def k0_t2_loop : Scf.Loop 32 :=
  let c0_i32_8 : BitVec 32 := 0#32
  let c12_i32_9 : BitVec 32 := 12#32
  let v12 : BitVec 32 := Scalar.addi c0_i32_8 c12_i32_9
  let c1_i32_10 : BitVec 32 := 1#32
  ⟨c0_i32_8, v12, c1_i32_10⟩
def k0_mult2 (k0_t2 : Fin k0_t2_loop.trips) : BitVec 32 :=
  let c0_i32_30 : BitVec 32 := 0#32
  let c0_i32_8 : BitVec 32 := 0#32
  let c1_i32_10 : BitVec 32 := 1#32
  let arg6 : BitVec 32 := Scf.iv c0_i32_8 c1_i32_10 k0_t2
  let c1_i32_29 : BitVec 32 := 1#32
  let v38 : BitVec 32 := Scalar.muli arg6 c1_i32_29
  let v39 : BitVec 32 := Scalar.addi c0_i32_30 v38
  let c256_i32 : BitVec 32 := 256#32
  let v40 : BitVec 32 := Scalar.muli v39 c256_i32
  v40
def k0_off3 (k0_t2 : Fin k0_t2_loop.trips) : Fin 3 → Nat :=
  let c0_31 : Index := 0#32
  let c0_32 : Index := 0#32
  let c0_i32_30 : BitVec 32 := 0#32
  let c0_i32_8 : BitVec 32 := 0#32
  let c1_i32_10 : BitVec 32 := 1#32
  let arg6 : BitVec 32 := Scf.iv c0_i32_8 c1_i32_10 k0_t2
  let c1_i32_29 : BitVec 32 := 1#32
  let v38 : BitVec 32 := Scalar.muli arg6 c1_i32_29
  let v39 : BitVec 32 := Scalar.addi c0_i32_30 v38
  let c256_i32 : BitVec 32 := 256#32
  let v40 : BitVec 32 := Scalar.muli v39 c256_i32
  let v41 : BitVec 32 := v40
  let v42 : Index := Scalar.indexCast v41
  ![0, 0, v42.toNat]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x384x3136 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S384x384 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S384x384 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x384x3136 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bitsLt_bf16_f32 : FTy.bits .bf16 < FTy.bits .f32
  shapeCasts_S8x384x56x56_S8x384x3136 : S8x384x56x56.ShapeCasts S8x384x3136
  inb_S384x384_S384x384_0_0 : ∀ a, (![0, 0] : Fin 2 → Nat) a + S384x384.size a ≤ S384x384.size a
  h_S384x384 : 0 < S384x384.numel
  shapeCasts_S384x384_S384x384 : S384x384.ShapeCasts S384x384
  h_S1x384x256 : 0 < S1x384x256.numel
  shapeCasts_S1x384x256_S384x256 : S1x384x256.ShapeCasts S384x256
  h_S384x256 : 0 < S384x256.numel
  shapeCasts_S384x256_S384x256 : S384x256.ShapeCasts S384x256
  inb_S1x384x3136_S1x384x64_0_0_3072 : ∀ a, (![0, 0, 3072] : Fin 3 → Nat) a + S1x384x64.size a ≤ S1x384x3136.size a
  h_S1x384x64 : 0 < S1x384x64.numel
  shapeCasts_S1x384x64_S384x64 : S1x384x64.ShapeCasts S384x64
  inb_S384x3136_S384x64_0_3072 : ∀ a, (![0, 3072] : Fin 2 → Nat) a + S384x64.size a ≤ S384x3136.size a
  h_S384x64 : 0 < S384x64.numel
  shapeCasts_S384x64_S384x64 : S384x64.ShapeCasts S384x64
  packedbf16_S384x3136_S384x64_0_3072 : (Rect.unit (s := S384x3136) ![0, 3072] S384x64.size inb_S384x3136_S384x64_0_3072).PackedRows (EltTy.packing .bf16)
  inb_S1x384x3136_S1x384x3136_0_0_0 : ∀ a, (![0, 0, 0] : Fin 3 → Nat) a + S1x384x3136.size a ≤ S1x384x3136.size a
  h_S1x384x3136 : 0 < S1x384x3136.numel
  shapeCasts_S1x384x3136_S384x3136 : S1x384x3136.ShapeCasts S384x3136
  reduces_S256x3136_S256 : S256x3136.Reduces [1] S256
  shapeCasts_S256_S256x1 : S256.ShapeCasts S256x1
  broadcasts_S256x1_S256x3136 : S256x1.Broadcasts S256x3136
  inb_S384x3136_S384x3136_0_0 : ∀ a, (![0, 0] : Fin 2 → Nat) a + S384x3136.size a ≤ S384x3136.size a
  h_S384x3136 : 0 < S384x3136.numel
  transposes_S256x1_p1_0_S1x256 : S256x1.Transposes [1, 0] S1x256
  broadcasts_S1x256_S384x256 : S1x256.Broadcasts S384x256
  shapeCasts_S384x256_S1x384x256 : S384x256.ShapeCasts S1x384x256
  reduces_S64x3136_S64 : S64x3136.Reduces [1] S64
  shapeCasts_S64_S64x1 : S64.ShapeCasts S64x1
  broadcasts_S64x1_S64x3136 : S64x1.Broadcasts S64x3136
  transposes_S64x1_p1_0_S1x64 : S64x1.Transposes [1, 0] S1x64
  broadcasts_S1x64_S384x64 : S1x64.Broadcasts S384x64
  shapeCasts_S384x64_S1x384x64 : S384x64.ShapeCasts S1x384x64
  shapeCasts_S8x384x3136_S8x384x56x56 : S8x384x3136.ShapeCasts S8x384x56x56
  dot_S384x384_S384x256_S384x256_1_0_0_1_n_n_wf : DotDims.WF S384x384 S384x256 S384x256 [1] [0] [0] [1] [] []
  dot_S384x384_S384x64_S384x64_1_0_0_1_n_n_wf : DotDims.WF S384x384 S384x64 S384x64 [1] [0] [0] [1] [] []
  dot_S384x256_S384x3136_S256x3136_0_0_1_1_n_n_wf : DotDims.WF S384x256 S384x3136 S256x3136 [0] [0] [1] [1] [] []
  dot_S384x3136_S256x3136_S384x256_1_1_0_0_n_n_wf : DotDims.WF S384x3136 S256x3136 S384x256 [1] [1] [0] [0] [] []
  dot_S384x64_S384x3136_S64x3136_0_0_1_1_n_n_wf : DotDims.WF S384x64 S384x3136 S64x3136 [0] [0] [1] [1] [] []
  dot_S384x3136_S64x3136_S384x64_1_1_0_0_n_n_wf : DotDims.WF S384x3136 S64x3136 S384x64 [1] [1] [0] [0] [] []
  hrank0 : 0 < grid0.rank
  k0_t1_ok : k0_t1_loop.OK
  k0_mult1_dvd : ∀ k0_t1 : Fin k0_t1_loop.trips, 128 ∣ (k0_mult1 k0_t1).toNat
  k0_off1_inb : ∀ k0_t1 : Fin k0_t1_loop.trips, ∀ a, (k0_off1 k0_t1) a + S1x384x256.size a ≤ S1x384x3136.size a
  k0_off2_inb : ∀ k0_t1 : Fin k0_t1_loop.trips, ∀ a, (k0_off2 k0_t1) a + S384x256.size a ≤ S384x3136.size a
  k0_off2_packedbf16 : ∀ k0_t1 : Fin k0_t1_loop.trips, (Rect.unit (s := S384x3136) (k0_off2 k0_t1) S384x256.size (k0_off2_inb k0_t1)).PackedRows (EltTy.packing .bf16)
  k0_t2_ok : k0_t2_loop.OK
  k0_mult2_dvd : ∀ k0_t2 : Fin k0_t2_loop.trips, 128 ∣ (k0_mult2 k0_t2).toNat
  k0_off3_inb : ∀ k0_t2 : Fin k0_t2_loop.trips, ∀ a, (k0_off3 k0_t2) a + S1x384x256.size a ≤ S1x384x3136.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x384x3136.size a ≤ S8x384x3136.size a
  hwx0_0 : ∀ i : grid0.Coords, EltTy.bits .bf16 = 32 ∨ (Rect.block (s := S8x384x3136) S1x384x3136.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S384x384.size a ≤ S384x384.size a
  hwx0_1 : ∀ i : grid0.Coords, EltTy.bits .bf16 = 32 ∨ (Rect.block (s := S384x384) S384x384.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S384x384.size a ≤ S384x384.size a
  hwx0_2 : ∀ i : grid0.Coords, EltTy.bits .bf16 = 32 ∨ (Rect.block (s := S384x384) S384x384.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x384x3136.size a ≤ S8x384x3136.size a
  hwx0_3 : ∀ i : grid0.Coords, EltTy.bits .f32 = 32 ∨ (Rect.block (s := S8x384x3136) S1x384x3136.size (cc0_transform_3 i) (hinb0_3 i)).WholeWords (EltTy.packing .f32)

variable [Facts₀]

def dot_S384x384_S384x256_S384x256_1_0_0_1_n_n : DotDims S384x384 S384x256 S384x256 where
  lhsContracting := [1]
  rhsContracting := [0]
  lhsNonContracting := [0]
  rhsNonContracting := [1]
  lhsBatch := []
  rhsBatch := []
  wf := dot_S384x384_S384x256_S384x256_1_0_0_1_n_n_wf
def dot_S384x384_S384x64_S384x64_1_0_0_1_n_n : DotDims S384x384 S384x64 S384x64 where
  lhsContracting := [1]
  rhsContracting := [0]
  lhsNonContracting := [0]
  rhsNonContracting := [1]
  lhsBatch := []
  rhsBatch := []
  wf := dot_S384x384_S384x64_S384x64_1_0_0_1_n_n_wf
def dot_S384x256_S384x3136_S256x3136_0_0_1_1_n_n : DotDims S384x256 S384x3136 S256x3136 where
  lhsContracting := [0]
  rhsContracting := [0]
  lhsNonContracting := [1]
  rhsNonContracting := [1]
  lhsBatch := []
  rhsBatch := []
  wf := dot_S384x256_S384x3136_S256x3136_0_0_1_1_n_n_wf
def dot_S384x3136_S256x3136_S384x256_1_1_0_0_n_n : DotDims S384x3136 S256x3136 S384x256 where
  lhsContracting := [1]
  rhsContracting := [1]
  lhsNonContracting := [0]
  rhsNonContracting := [0]
  lhsBatch := []
  rhsBatch := []
  wf := dot_S384x3136_S256x3136_S384x256_1_1_0_0_n_n_wf
def dot_S384x64_S384x3136_S64x3136_0_0_1_1_n_n : DotDims S384x64 S384x3136 S64x3136 where
  lhsContracting := [0]
  rhsContracting := [0]
  lhsNonContracting := [1]
  rhsNonContracting := [1]
  lhsBatch := []
  rhsBatch := []
  wf := dot_S384x64_S384x3136_S64x3136_0_0_1_1_n_n_wf
def dot_S384x3136_S64x3136_S384x64_1_1_0_0_n_n : DotDims S384x3136 S64x3136 S384x64 where
  lhsContracting := [1]
  rhsContracting := [1]
  lhsNonContracting := [0]
  rhsNonContracting := [0]
  lhsBatch := []
  rhsBatch := []
  wf := dot_S384x3136_S64x3136_S384x64_1_1_0_0_n_n_wf

abbrev win0_0 : Pipeline.Window sig grid0 :=
  Pipeline.Window.ofSpec (Memref.whole main_v1) S1x384x3136.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S384x384.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S384x384.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1x384x3136.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8x384x56x56 : Shape := ⟨4, ![8, 384, 56, 56]⟩
abbrev S384x384 : Shape := ⟨2, ![384, 384]⟩
abbrev S8x384x3136 : Shape := ⟨3, ![8, 384, 3136]⟩
abbrev S8x3136x384 : Shape := ⟨3, ![8, 3136, 384]⟩
abbrev S8x3136x3136 : Shape := ⟨3, ![8, 3136, 3136]⟩
abbrev S_ : Shape := ⟨0, ![]⟩
abbrev S8x3136 : Shape := ⟨2, ![8, 3136]⟩
abbrev S8x3136x1 : Shape := ⟨3, ![8, 3136, 1]⟩

abbrev nBuf : Space → Nat
  | .hbm => 28
  | .vmem => 0
  | .smem => 0
  | _ => 0

abbrev bufTy : (tb : Table) → Fin (tcTables nBuf tb) → BufTy
  | .hbm, ⟨0, _⟩ => ⟨S8x384x56x56, .f32⟩
  | .hbm, ⟨1, _⟩ => ⟨S384x384, .f32⟩
  | .hbm, ⟨2, _⟩ => ⟨S384x384, .f32⟩
  | .hbm, ⟨3, _⟩ => ⟨S8x384x3136, .f32⟩
  | .hbm, ⟨4, _⟩ => ⟨S8x3136x384, .f32⟩
  | .hbm, ⟨5, _⟩ => ⟨S8x3136x384, .f32⟩
  | .hbm, ⟨6, _⟩ => ⟨S8x3136x3136, .f32⟩
  | .hbm, ⟨7, _⟩ => ⟨S_, .f32⟩
  | .hbm, ⟨8, _⟩ => ⟨S8x3136x3136, .f32⟩
  | .hbm, ⟨9, _⟩ => ⟨S8x3136x3136, .f32⟩
  | .hbm, ⟨10, _⟩ => ⟨S_, .f32⟩
  | .hbm, ⟨11, _⟩ => ⟨S8x3136, .f32⟩
  | .hbm, ⟨12, _⟩ => ⟨S_, .f32⟩
  | .hbm, ⟨13, _⟩ => ⟨S8x3136, .f32⟩
  | .hbm, ⟨14, _⟩ => ⟨S8x3136, .f32⟩
  | .hbm, ⟨15, _⟩ => ⟨S8x3136x1, .f32⟩
  | .hbm, ⟨16, _⟩ => ⟨S8x3136x3136, .f32⟩
  | .hbm, ⟨17, _⟩ => ⟨S8x3136x3136, .f32⟩
  | .hbm, ⟨18, _⟩ => ⟨S8x3136x3136, .f32⟩
  | .hbm, ⟨19, _⟩ => ⟨S_, .f32⟩
  | .hbm, ⟨20, _⟩ => ⟨S8x3136, .f32⟩
  | .hbm, ⟨21, _⟩ => ⟨S8x3136x1, .f32⟩
  | .hbm, ⟨22, _⟩ => ⟨S8x3136x3136, .f32⟩
  | .hbm, ⟨23, _⟩ => ⟨S8x3136x3136, .f32⟩
  | .hbm, ⟨24, _⟩ => ⟨S8x3136x384, .f32⟩
  | .hbm, ⟨25, _⟩ => ⟨S8x3136x384, .f32⟩
  | .hbm, ⟨26, _⟩ => ⟨S8x384x3136, .f32⟩
  | .hbm, ⟨27, _⟩ => ⟨S8x384x56x56, .f32⟩
  | _, _ => ⟨S8x384x56x56, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩

abbrev nD : Nat := 1
abbrev τ : Topo := Topo.v7x

variable {F : FTy → Type} [FloatOps F]

class Facts₀ : Prop where
  shapeCasts_S8x384x56x56_S8x384x3136 : S8x384x56x56.ShapeCasts S8x384x3136
  transposes_S8x384x3136_S8x3136x384_0_2_1 : S8x384x3136.Transposes [0, 2, 1] S8x3136x384
  bcast_S_S8x3136x3136 : S_.BroadcastsInDim S8x3136x3136 (![] : Fin 0 → Fin S8x3136x3136.rank)
  reducesTo_S8x3136x3136_S8x3136_d2 : S8x3136x3136.ReducesTo [2] S8x3136
  h_S_ : 0 < S_.numel
  bcast_S_S8x3136 : S_.BroadcastsInDim S8x3136 (![] : Fin 0 → Fin S8x3136.rank)
  bcast_S8x3136_S8x3136x1_0_1 : S8x3136.BroadcastsInDim S8x3136x1 (![0, 1] : Fin 2 → Fin S8x3136x1.rank)
  bcast_S8x3136x1_S8x3136x3136_0_1_2 : S8x3136x1.BroadcastsInDim S8x3136x3136 (![0, 1, 2] : Fin 3 → Fin S8x3136x3136.rank)
  transposes_S8x3136x384_S8x384x3136_0_2_1 : S8x3136x384.Transposes [0, 2, 1] S8x384x3136
  shapeCasts_S8x384x3136_S8x384x56x56 : S8x384x3136.ShapeCasts S8x384x56x56
  dot_S8x3136x384_S384x384_S8x3136x384_2_1_01_0_n_n_wf : DotDims.WF S8x3136x384 S384x384 S8x3136x384 [2] [1] [0, 1] [0] [] []
  dot_S8x3136x384_S8x3136x384_S8x3136x3136_2_2_1_1_0_0_wf : DotDims.WF S8x3136x384 S8x3136x384 S8x3136x3136 [2] [2] [1] [1] [0] [0]
  dot_S8x3136x3136_S8x3136x384_S8x3136x384_2_1_1_2_0_0_wf : DotDims.WF S8x3136x3136 S8x3136x384 S8x3136x384 [2] [1] [1] [2] [0] [0]

variable [Facts₀]

def dot_S8x3136x384_S384x384_S8x3136x384_2_1_01_0_n_n : DotDims S8x3136x384 S384x384 S8x3136x384 where
  lhsContracting := [2]
  rhsContracting := [1]
  lhsNonContracting := [0, 1]
  rhsNonContracting := [0]
  lhsBatch := []
  rhsBatch := []
  wf := dot_S8x3136x384_S384x384_S8x3136x384_2_1_01_0_n_n_wf
def dot_S8x3136x384_S8x3136x384_S8x3136x3136_2_2_1_1_0_0 : DotDims S8x3136x384 S8x3136x384 S8x3136x3136 where
  lhsContracting := [2]
  rhsContracting := [2]
  lhsNonContracting := [1]
  rhsNonContracting := [1]
  lhsBatch := [0]
  rhsBatch := [0]
  wf := dot_S8x3136x384_S8x3136x384_S8x3136x3136_2_2_1_1_0_0_wf
def dot_S8x3136x3136_S8x3136x384_S8x3136x384_2_1_1_2_0_0 : DotDims S8x3136x3136 S8x3136x384 S8x3136x384 where
  lhsContracting := [2]
  rhsContracting := [1]
  lhsNonContracting := [1]
  rhsNonContracting := [2]
  lhsBatch := [0]
  rhsBatch := [0]
  wf := dot_S8x3136x3136_S8x3136x384_S8x3136x384_2_1_1_2_0_0_wf

class Facts : Prop extends Facts₀ where

variable [Facts]
-- ==== Proof.Spec.lean ====
/-
  One batch of single-head attention over the extended reals, written twice.

  For one batch the input is a matrix `x` of 384 channels by 3136 positions and two square weight matrices `w1`, `w2`
  of size 384. With `q = w1 · x` (queries, one column per position), `v = w2 · x` (values) and the fixed scale `κ`,
  the score of positions `n` and `m` is the inner product over channels of column `n` of `q` and column `m` of `x`,
  times `κ`; each row of scores is turned into weights by subtracting the row's maximum, exponentiating and
  dividing by the row's sum; the result at channel `d`, position `n` is the weighted sum over `m` of `v d m`.

  `outK` places the scale on the queries before the inner product and divides by the row sum after the weighted
  sum; `outR` scales the finished inner product and divides each weight before the weighted sum. Over the extended
  reals the two differ by distributivity, which holds when every entry involved is a real number: `outK_eq_outR`.
-/
import Idealize.ShloMosaic.PureOps.Ideal
import Idealize.ShloMosaic.PureOps.Ideal.Laws

noncomputable section

namespace Cert.Attn

open Idealize.ShloMosaic
open scoped BigOperators

/-- The scale, `384 ^ (-1/2)` rounded to the 32-bit format: the value the word denotes. -/
def κ : EReal := Ideal.ofBits .f32 0x3D5105EC#32

/-- The value the word `0xFF800000` denotes (minus infinity): where a row maximum starts from. -/
def negInf : EReal := Ideal.ofBits .f32 0xFF800000#32

/-- The value the zero word denotes: where the reference's row sum starts from. -/
def zeroW : EReal := Ideal.ofBits .f32 0x00000000#32

/-- A matrix of 384 channels by 3136 positions, and a square weight matrix. -/
abbrev Mat := Fin 384 → Fin 3136 → EReal
abbrev Wt := Fin 384 → Fin 384 → EReal

/-- The maximum of a row of 3136 scores, folded from minus infinity. -/
def rowMax (s : Fin 3136 → EReal) : EReal := (Finset.univ : Finset (Fin 3136)).fold max negInf s

/-! ## The kernel's arrangement -/

/-- Values: `v d m = ∑ c, w2 d c * x c m`. -/
def valT (x : Mat) (w2 : Wt) (d : Fin 384) (m : Fin 3136) : EReal := ∑ c : Fin 384, w2 d c * x c m

/-- Scaled queries: `q d n = (∑ c, w1 d c * x c n) * κ`. -/
def qryT (x : Mat) (w1 : Wt) (d : Fin 384) (n : Fin 3136) : EReal := (∑ c : Fin 384, w1 d c * x c n) * κ

/-- Scores from scaled queries. -/
def scoreK (x : Mat) (w1 : Wt) (n m : Fin 3136) : EReal := ∑ d : Fin 384, qryT x w1 d n * x d m

/-- Unnormalised weights: the exponential of a score minus its row's maximum. -/
def expK (x : Mat) (w1 : Wt) (n m : Fin 3136) : EReal := Ideal.exp (scoreK x w1 n m - rowMax (scoreK x w1 n))

/-- The row sum of the unnormalised weights. -/
def denK (x : Mat) (w1 : Wt) (n : Fin 3136) : EReal := ∑ m : Fin 3136, expK x w1 n m

/-- The result over ANY value matrix `v`: the weighted sum first, one division by the row sum last. -/
def outKv (x : Mat) (w1 : Wt) (v : Mat) (d : Fin 384) (n : Fin 3136) : EReal :=
  Ideal.div (∑ m : Fin 3136, v d m * expK x w1 n m) (denK x w1 n)

/-- The kernel's result: `outKv` at the values `w2 · x`. -/
def outK (x : Mat) (w1 w2 : Wt) (d : Fin 384) (n : Fin 3136) : EReal := outKv x w1 (valT x w2) d n

/-! ## The reference's arrangement -/

/-- Queries, position-major: `q n d = ∑ c, x c n * w1 d c`. -/
def qryR (x : Mat) (w1 : Wt) (n : Fin 3136) (d : Fin 384) : EReal := ∑ c : Fin 384, x c n * w1 d c

/-- Scores, scaled after the inner product. -/
def scoreR (x : Mat) (w1 : Wt) (n m : Fin 3136) : EReal := (∑ d : Fin 384, qryR x w1 n d * x d m) * κ

/-- The row maximum as the reference takes it: the fold, then once more against minus infinity. -/
def rowMaxR (s : Fin 3136 → EReal) : EReal := max negInf (rowMax s)

def expR (x : Mat) (w1 : Wt) (n m : Fin 3136) : EReal := Ideal.exp (scoreR x w1 n m - rowMaxR (scoreR x w1 n))

/-- The row sum as the reference takes it: from the zero word. -/
def denR (x : Mat) (w1 : Wt) (n : Fin 3136) : EReal := zeroW + ∑ m : Fin 3136, expR x w1 n m

/-- Normalised weights. -/
def wgtR (x : Mat) (w1 : Wt) (n m : Fin 3136) : EReal := Ideal.div (expR x w1 n m) (denR x w1 n)

/-- Values, position-major: `v m d = ∑ c, x c m * w2 d c`. -/
def valR (x : Mat) (w2 : Wt) (m : Fin 3136) (d : Fin 384) : EReal := ∑ c : Fin 384, x c m * w2 d c

/-- The reference's result. -/
def outR (x : Mat) (w1 w2 : Wt) (d : Fin 384) (n : Fin 3136) : EReal :=
  ∑ m : Fin 3136, wgtR x w1 n m * valR x w2 m d

end Cert.Attn

end
-- ==== Proof.Spec3.lean ====
/-
  The attention of `Spec.lean`, batch by batch, over the arrays the two programs hold: the input as an array of
  8 batches by 384 channels by 3136 positions and the two weights as 384 by 384 arrays. Entry `(b, d, n)` of the result
  is entry `(d, n)` of the attention of batch `b`.
-/
import proofs.«426938_j13941463843545_3_alg».proof.Proof.Spec
import Idealize.ShloMosaic.Lib.ValueIdx

noncomputable section

namespace Cert.Attn

open Idealize.ShloMosaic Idealize.ShloMosaic.ValueIdx

/-- The shapes of the batched input and of a weight. -/
abbrev S3 : Shape := ⟨3, ![8, 384, 3136]⟩
abbrev SW : Shape := ⟨2, ![384, 384]⟩

/-- Batch `b` of a batched input, as a matrix. -/
def batchOf (x3 : S3.Idx → EReal) (b : Fin 8) : Mat := fun c m => x3 (ix3 b c m)

/-- A weight array as a matrix. -/
def wtOf (w : SW.Idx → EReal) : Wt := fun d c => w (ix2 d c)

/-- The kernel's arrangement over the batched arrays. -/
def out3K (x3 : S3.Idx → EReal) (w1 w2 : SW.Idx → EReal) : S3.Idx → EReal :=
  fun i => outK (batchOf x3 (i 0)) (wtOf w1) (wtOf w2) (i 1) (i 2)

/-- The reference's arrangement over the batched arrays. -/
def out3R (x3 : S3.Idx → EReal) (w1 w2 : SW.Idx → EReal) : S3.Idx → EReal :=
  fun i => outR (batchOf x3 (i 0)) (wtOf w1) (wtOf w2) (i 1) (i 2)

/-- Every entry of an array over the extended reals is a real number. -/
def AllReal {S : Shape} (x : S.Idx → EReal) : Prop := ∀ i, ∃ r : ℝ, x i = (r : EReal)

end Cert.Attn

end
-- ==== Proof.RefValue.lean ====
/-
  The reference program's result, before its last reshape, is the reference's arrangement of attention (`Attn.out3R`)
  of the reshaped input and the two weights, entry by entry.

  Entry `(b, d, n)` of the transposed product is entry `(b, n, d)` of the product of the weights with the values; the
  weights are the exponentials of scores minus their row maximum divided by the row sum; the scores are the scaled inner
  products of queries with the transposed input; queries and values are the transposed input times each weight matrix.
  Each stage is read at an index; the contraction indices of the four products are the channel (three times) and the
  position (once).
-/
import proofs.«426938_j13941463843545_3_alg».proof.Proof.Gen.ReferenceIdeal.Read
import proofs.«426938_j13941463843545_3_alg».proof.Proof.Spec3
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.Read
open Idealize.ShloMosaic Idealize.ShloMosaic.ValueIdx
open scoped BigOperators

section Stages

variable (x0 : (⟨S8x384x56x56, .f32⟩ : BufTy).Contents (Elt Ideal)) (x1 x2 : (⟨S384x384, .f32⟩ : BufTy).Contents (Elt Ideal))

/-- The transposed input at batch `b`, position `n`, channel `c` is the input at `(b, c, n)`. -/
theorem v1_at (b : Fin 8) (n : Fin 3136) (c : Fin 384) :
    val_main_v1 (F := Ideal) x0 (ix3 b n c) = Attn.batchOf (val_main_v0 (F := Ideal) x0) b c n := by
  rw [val_main_v1_apply]
  show _ = val_main_v0 (F := Ideal) x0 (ix3 b c n)
  exact congrArg (val_main_v0 (F := Ideal) x0)
    (funext fun a => Fin.ext (by match a with | ⟨0, _⟩ => rfl | ⟨1, _⟩ => rfl | ⟨2, _⟩ => rfl))

/-- Queries: the transposed input times the first weight, contracted over the channel. -/
theorem v2_at (b : Fin 8) (n : Fin 3136) (d : Fin 384) :
    val_main_v2 (F := Ideal) x0 x1 (ix3 b n d)
      = Attn.qryR (Attn.batchOf (val_main_v0 (F := Ideal) x0) b) (Attn.wtOf x1) n d := by
  rw [val_main_v2_apply]
  unfold Attn.qryR
  refine Finset.sum_congr rfl fun c _ => ?_
  have el : lidx_main_v2 (ix3 b n d) c = ix3 b n c :=
    funext fun a => Fin.ext (by match a with | ⟨0, _⟩ => rfl | ⟨1, _⟩ => rfl | ⟨2, _⟩ => rfl)
  have er : ridx_main_v2 (ix3 b n d) c = ix2 d c :=
    funext fun a => Fin.ext (by match a with | ⟨0, _⟩ => rfl | ⟨1, _⟩ => rfl)
  rw [el, er, v1_at]
  rfl

/-- Unscaled scores: queries against the transposed input, contracted over the channel. -/
theorem v3_at (b : Fin 8) (n m : Fin 3136) :
    val_main_v3 (F := Ideal) x0 x1 (ix3 b n m)
      = ∑ d : Fin 384, Attn.qryR (Attn.batchOf (val_main_v0 (F := Ideal) x0) b) (Attn.wtOf x1) n d
          * Attn.batchOf (val_main_v0 (F := Ideal) x0) b d m := by
  rw [val_main_v3_apply]
  refine Finset.sum_congr rfl fun d _ => ?_
  have el : lidx_main_v3 (ix3 b n m) d = ix3 b n d :=
    funext fun a => Fin.ext (by match a with | ⟨0, _⟩ => rfl | ⟨1, _⟩ => rfl | ⟨2, _⟩ => rfl)
  have er : ridx_main_v3 (ix3 b n m) d = ix3 b m d :=
    funext fun a => Fin.ext (by match a with | ⟨0, _⟩ => rfl | ⟨1, _⟩ => rfl | ⟨2, _⟩ => rfl)
  rw [el, er, v2_at, v1_at]

/-- Scores: the inner product times the scale. -/
theorem v5_at (b : Fin 8) (n m : Fin 3136) :
    val_main_v5 (F := Ideal) x0 x1 (ix3 b n m)
      = Attn.scoreR (Attn.batchOf (val_main_v0 (F := Ideal) x0) b) (Attn.wtOf x1) n m := by
  rw [val_main_v5_apply, val_main_v4_apply, val_main_cst_apply, v3_at]
  rfl

end Stages

section Softmax

variable (x0 : (⟨S8x384x56x56, .f32⟩ : BufTy).Contents (Elt Ideal)) (x1 : (⟨S384x384, .f32⟩ : BufTy).Contents (Elt Ideal))

/-- The index over `(b, n)` with position `k` put back on the reduced axis is `(b, n, k)`. -/
theorem lift_at (h : S8x3136x3136.Reduces [2] S8x3136) (b : Fin 8) (n : Fin 3136) (k : Fin (S8x3136x3136.size 2)) :
    h.lift (ix2 b n) k = ix3 b n (⟨k.val, k.isLt⟩ : Fin 3136) :=
  funext fun c => Fin.ext (by match c with | ⟨0, _⟩ => rfl | ⟨1, _⟩ => rfl | ⟨2, _⟩ => rfl)

/-- The maximum-reduce over the last axis is the row maximum of the scores, folded from minus infinity. -/
theorem v6_at (b : Fin 8) (n : Fin 3136) :
    val_main_v6 (F := Ideal) x0 x1 (ix2 b n)
      = Attn.rowMax (Attn.scoreR (Attn.batchOf (val_main_v0 (F := Ideal) x0) b) (Attn.wtOf x1) n) := by
  have h : S8x3136x3136.Reduces [2] S8x3136 := by decide
  unfold val_main_v6
  rw [Host.reduce_eq_fold_single FloatOps.maximumf _ _ reducesTo_S8x3136x3136_S8x3136_d2 h h_S_]
  have hf : (val_main_v5 (F := Ideal) x0 x1 ∘ h.lift (ix2 b n))
      = fun k : Fin 3136 => Attn.scoreR (Attn.batchOf (val_main_v0 (F := Ideal) x0) b) (Attn.wtOf x1) n k :=
    funext fun k => by
      show val_main_v5 (F := Ideal) x0 x1 (h.lift (ix2 b n) k) = _
      rw [lift_at, v5_at]
      rfl
  exact congrArg (fun f => Finset.fold max Attn.negInf f (Finset.univ : Finset (Fin 3136))) hf

/-- The reference's row maximum: the fold, once more against minus infinity. -/
theorem v8_at (b : Fin 8) (n : Fin 3136) :
    val_main_v8 (F := Ideal) x0 x1 (ix2 b n)
      = Attn.rowMaxR (Attn.scoreR (Attn.batchOf (val_main_v0 (F := Ideal) x0) b) (Attn.wtOf x1) n) := by
  rw [val_main_v8_apply, val_main_v7_apply, val_main_cst_1_apply, v6_at]
  rfl

/-- The row maximum broadcast along the row. -/
theorem v10_at (b : Fin 8) (n m : Fin 3136) :
    val_main_v10 (F := Ideal) x0 x1 (ix3 b n m)
      = Attn.rowMaxR (Attn.scoreR (Attn.batchOf (val_main_v0 (F := Ideal) x0) b) (Attn.wtOf x1) n) := by
  rw [val_main_v10_apply, val_main_v9_apply]
  have e : idx_main_v9 (idx_main_v10 (ix3 b n m)) = ix2 b n :=
    funext fun a => Fin.ext (by match a with | ⟨0, _⟩ => rfl | ⟨1, _⟩ => rfl)
  rw [e, v8_at]

/-- Unnormalised weights: the exponential of a score minus its row's maximum. -/
theorem v12_at (b : Fin 8) (n m : Fin 3136) :
    val_main_v12 (F := Ideal) x0 x1 (ix3 b n m)
      = Attn.expR (Attn.batchOf (val_main_v0 (F := Ideal) x0) b) (Attn.wtOf x1) n m := by
  rw [val_main_v12_apply, val_main_v11_apply, v5_at, v10_at]
  rfl

/-- The row sum, from the zero word. -/
theorem v13_at (b : Fin 8) (n : Fin 3136) :
    val_main_v13 (F := Ideal) x0 x1 (ix2 b n)
      = Attn.denR (Attn.batchOf (val_main_v0 (F := Ideal) x0) b) (Attn.wtOf x1) n := by
  rw [val_main_v13_apply, val_main_cst_2_apply]
  unfold Attn.denR
  refine congrArg₂ (· + ·) rfl (Finset.sum_congr rfl fun m _ => ?_)
  have e : idx_main_v13 (ix2 b n) m = ix3 b n m :=
    funext fun a => Fin.ext (by match a with | ⟨0, _⟩ => rfl | ⟨1, _⟩ => rfl | ⟨2, _⟩ => rfl)
  rw [e, v12_at]

/-- Normalised weights: each unnormalised weight divided by its row's sum. -/
theorem v16_at (b : Fin 8) (n m : Fin 3136) :
    val_main_v16 (F := Ideal) x0 x1 (ix3 b n m)
      = Attn.wgtR (Attn.batchOf (val_main_v0 (F := Ideal) x0) b) (Attn.wtOf x1) n m := by
  rw [val_main_v16_apply, val_main_v15_apply, val_main_v14_apply]
  have e : idx_main_v14 (idx_main_v15 (ix3 b n m)) = ix2 b n :=
    funext fun a => Fin.ext (by match a with | ⟨0, _⟩ => rfl | ⟨1, _⟩ => rfl)
  rw [e, v13_at, v12_at]
  rfl

end Softmax

section Result

variable (x0 : (⟨S8x384x56x56, .f32⟩ : BufTy).Contents (Elt Ideal)) (x1 x2 : (⟨S384x384, .f32⟩ : BufTy).Contents (Elt Ideal))

/-- Values: the transposed input times the second weight, contracted over the channel. -/
theorem v17_at (b : Fin 8) (m : Fin 3136) (d : Fin 384) :
    val_main_v17 (F := Ideal) x0 x2 (ix3 b m d)
      = Attn.valR (Attn.batchOf (val_main_v0 (F := Ideal) x0) b) (Attn.wtOf x2) m d := by
  rw [val_main_v17_apply]
  unfold Attn.valR
  refine Finset.sum_congr rfl fun c _ => ?_
  have el : lidx_main_v17 (ix3 b m d) c = ix3 b m c :=
    funext fun a => Fin.ext (by match a with | ⟨0, _⟩ => rfl | ⟨1, _⟩ => rfl | ⟨2, _⟩ => rfl)
  have er : ridx_main_v17 (ix3 b m d) c = ix2 d c :=
    funext fun a => Fin.ext (by match a with | ⟨0, _⟩ => rfl | ⟨1, _⟩ => rfl)
  rw [el, er, v1_at]
  rfl

/-- The weighted sum of values, contracted over the position. -/
theorem v18_at (b : Fin 8) (n : Fin 3136) (d : Fin 384) :
    val_main_v18 (F := Ideal) x0 x1 x2 (ix3 b n d)
      = Attn.outR (Attn.batchOf (val_main_v0 (F := Ideal) x0) b) (Attn.wtOf x1) (Attn.wtOf x2) d n := by
  rw [val_main_v18_apply]
  unfold Attn.outR
  refine Finset.sum_congr rfl fun m _ => ?_
  have el : lidx_main_v18 (ix3 b n d) m = ix3 b n m :=
    funext fun a => Fin.ext (by match a with | ⟨0, _⟩ => rfl | ⟨1, _⟩ => rfl | ⟨2, _⟩ => rfl)
  have er : ridx_main_v18 (ix3 b n d) m = ix3 b m d :=
    funext fun a => Fin.ext (by match a with | ⟨0, _⟩ => rfl | ⟨1, _⟩ => rfl | ⟨2, _⟩ => rfl)
  rw [el, er, v16_at, v17_at]

end Result

/-- The reference's result before the last reshape is `out3R` of the reshaped input and the weights. -/
theorem v19_eq (x0 : (⟨S8x384x56x56, .f32⟩ : BufTy).Contents (Elt Ideal)) (x1 x2 : (⟨S384x384, .f32⟩ : BufTy).Contents (Elt Ideal)) :
    val_main_v19 (F := Ideal) x0 x1 x2 = Cert.Attn.out3R (val_main_v0 (F := Ideal) x0) x1 x2 := by
  funext i
  obtain ⟨b, d, n, rfl⟩ : ∃ (b : Fin 8) (d : Fin 384) (n : Fin 3136), i = ix3 b d n := ⟨i 0, i 1, i 2, eq_ix3 i⟩
  rw [val_main_v19_apply]
  have e : idx_main_v19 (ix3 b d n) = ix3 b n d :=
    funext fun a => Fin.ext (by match a with | ⟨0, _⟩ => rfl | ⟨1, _⟩ => rfl | ⟨2, _⟩ => rfl)
  rw [e, v18_at]
  rfl

end Cert.ReferenceIdeal.RefValue

end
-- ==== Proof.PayV.lean ====
/-
  The value matrix, chunk by chunk, read at one entry: entry `(d, j)` of the product of the second weight matrix with
  a chunk of columns of the input starting at column `o` is the sum over channels `c` of `w2 d c` times the input at
  `(c, o + j)`, which is entry `(d, o + j)` of `Attn.valT`. The same for the last, shorter chunk.
-/
import proofs.«426938_j13941463843545_3_alg».proof.Proof.Gen.KernelIdeal.Skeleton
import proofs.«426938_j13941463843545_3_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Pay

open Cert.KernelIdeal Cert.KernelIdeal.Gen
open Idealize.ShloMosaic Idealize.ShloMosaic.ValueIdx

/-! ### The product of a 384 by 384 matrix with a 384 by 256 matrix, into zero -/

theorem lhs4_0 (i : S384x256.Idx) (q : dot_S384x384_S384x256_S384x256_1_0_0_1_n_n.contr.Idx) :
    (dot_S384x384_S384x256_S384x256_1_0_0_1_n_n.lhsIdx i q 0).val = (i 0).val := by
  unfold DotDims.lhsIdx
  rw [dif_neg (show ¬(0 : Fin S384x384.rank) ∈ dot_S384x384_S384x256_S384x256_1_0_0_1_n_n.lhsBatch by decide), dif_pos (show (0 : Fin S384x384.rank) ∈ dot_S384x384_S384x256_S384x256_1_0_0_1_n_n.lhsNonContracting by decide)]
  rfl
theorem lhs4_1 (i : S384x256.Idx) (q : dot_S384x384_S384x256_S384x256_1_0_0_1_n_n.contr.Idx) :
    (dot_S384x384_S384x256_S384x256_1_0_0_1_n_n.lhsIdx i q 1).val = (q ⟨0, by decide⟩).val :=
  dot_S384x384_S384x256_S384x256_1_0_0_1_n_n.lhsIdx_val_of_single rfl i q
theorem rhs4_0 (i : S384x256.Idx) (q : dot_S384x384_S384x256_S384x256_1_0_0_1_n_n.contr.Idx) :
    (dot_S384x384_S384x256_S384x256_1_0_0_1_n_n.rhsIdx i q 0).val = (q ⟨0, by decide⟩).val :=
  dot_S384x384_S384x256_S384x256_1_0_0_1_n_n.rhsIdx_val_of_single rfl i q
theorem rhs4_1 (i : S384x256.Idx) (q : dot_S384x384_S384x256_S384x256_1_0_0_1_n_n.contr.Idx) :
    (dot_S384x384_S384x256_S384x256_1_0_0_1_n_n.rhsIdx i q 1).val = (i 1).val := by
  unfold DotDims.rhsIdx
  rw [dif_neg (show ¬(1 : Fin S384x256.rank) ∈ dot_S384x384_S384x256_S384x256_1_0_0_1_n_n.rhsBatch by decide), dif_pos (show (1 : Fin S384x256.rank) ∈ dot_S384x384_S384x256_S384x256_1_0_0_1_n_n.rhsNonContracting by decide)]
  rfl

/-- Entry `(d, j)` of the product is the sum over `c` of the left factor at `(d, c)` times the right factor at `(c, j)`. -/
theorem mm4_apply (A : FVec Ideal S384x384 .bf16) (B : FVec Ideal S384x256 .bf16) (d : Fin 384) (j : Fin 256) :
    matmul dot_S384x384_S384x256_S384x256_1_0_0_1_n_n none A B (constant (F := Ideal) S384x256 .f32 0x00000000#32) (ix2 d j)
      = ∑ c : Fin 384, A (ix2 d c) * B (ix2 c j) := by
  simp only [matmul]
  rw [Ideal.matmul_constant_zero_apply, ← Equiv.sum_comp (contrEquiv1 dot_S384x384_S384x256_S384x256_1_0_0_1_n_n 384 rfl rfl).symm]
  refine Finset.sum_congr rfl fun k _ => ?_
  have hk := contrEquiv1_symm_val dot_S384x384_S384x256_S384x256_1_0_0_1_n_n 384 rfl rfl k
  have el : dot_S384x384_S384x256_S384x256_1_0_0_1_n_n.lhsIdx (ix2 d j) ((contrEquiv1 dot_S384x384_S384x256_S384x256_1_0_0_1_n_n 384 rfl rfl).symm k) = ix2 d k := funext fun a => Fin.ext (by
    match a with
    | ⟨0, _⟩ => exact lhs4_0 _ _
    | ⟨1, _⟩ => exact (lhs4_1 _ _).trans hk)
  have er : dot_S384x384_S384x256_S384x256_1_0_0_1_n_n.rhsIdx (ix2 d j) ((contrEquiv1 dot_S384x384_S384x256_S384x256_1_0_0_1_n_n 384 rfl rfl).symm k) = ix2 k j := funext fun a => Fin.ext (by
    match a with
    | ⟨0, _⟩ => exact (rhs4_0 _ _).trans hk
    | ⟨1, _⟩ => exact rhs4_1 _ _)
  rw [el, er]

/-! ### The product of a 384 by 384 matrix with a 384 by 64 matrix, into zero -/

theorem lhs5_0 (i : S384x64.Idx) (q : dot_S384x384_S384x64_S384x64_1_0_0_1_n_n.contr.Idx) :
    (dot_S384x384_S384x64_S384x64_1_0_0_1_n_n.lhsIdx i q 0).val = (i 0).val := by
  unfold DotDims.lhsIdx
  rw [dif_neg (show ¬(0 : Fin S384x384.rank) ∈ dot_S384x384_S384x64_S384x64_1_0_0_1_n_n.lhsBatch by decide), dif_pos (show (0 : Fin S384x384.rank) ∈ dot_S384x384_S384x64_S384x64_1_0_0_1_n_n.lhsNonContracting by decide)]
  rfl
theorem lhs5_1 (i : S384x64.Idx) (q : dot_S384x384_S384x64_S384x64_1_0_0_1_n_n.contr.Idx) :
    (dot_S384x384_S384x64_S384x64_1_0_0_1_n_n.lhsIdx i q 1).val = (q ⟨0, by decide⟩).val :=
  dot_S384x384_S384x64_S384x64_1_0_0_1_n_n.lhsIdx_val_of_single rfl i q
theorem rhs5_0 (i : S384x64.Idx) (q : dot_S384x384_S384x64_S384x64_1_0_0_1_n_n.contr.Idx) :
    (dot_S384x384_S384x64_S384x64_1_0_0_1_n_n.rhsIdx i q 0).val = (q ⟨0, by decide⟩).val :=
  dot_S384x384_S384x64_S384x64_1_0_0_1_n_n.rhsIdx_val_of_single rfl i q
theorem rhs5_1 (i : S384x64.Idx) (q : dot_S384x384_S384x64_S384x64_1_0_0_1_n_n.contr.Idx) :
    (dot_S384x384_S384x64_S384x64_1_0_0_1_n_n.rhsIdx i q 1).val = (i 1).val := by
  unfold DotDims.rhsIdx
  rw [dif_neg (show ¬(1 : Fin S384x64.rank) ∈ dot_S384x384_S384x64_S384x64_1_0_0_1_n_n.rhsBatch by decide), dif_pos (show (1 : Fin S384x64.rank) ∈ dot_S384x384_S384x64_S384x64_1_0_0_1_n_n.rhsNonContracting by decide)]
  rfl

/-- Entry `(d, j)` of the product is the sum over `c` of the left factor at `(d, c)` times the right factor at `(c, j)`. -/
theorem mm5_apply (A : FVec Ideal S384x384 .bf16) (B : FVec Ideal S384x64 .bf16) (d : Fin 384) (j : Fin 64) :
    matmul dot_S384x384_S384x64_S384x64_1_0_0_1_n_n none A B (constant (F := Ideal) S384x64 .f32 0x00000000#32) (ix2 d j)
      = ∑ c : Fin 384, A (ix2 d c) * B (ix2 c j) := by
  simp only [matmul]
  rw [Ideal.matmul_constant_zero_apply, ← Equiv.sum_comp (contrEquiv1 dot_S384x384_S384x64_S384x64_1_0_0_1_n_n 384 rfl rfl).symm]
  refine Finset.sum_congr rfl fun k _ => ?_
  have hk := contrEquiv1_symm_val dot_S384x384_S384x64_S384x64_1_0_0_1_n_n 384 rfl rfl k
  have el : dot_S384x384_S384x64_S384x64_1_0_0_1_n_n.lhsIdx (ix2 d j) ((contrEquiv1 dot_S384x384_S384x64_S384x64_1_0_0_1_n_n 384 rfl rfl).symm k) = ix2 d k := funext fun a => Fin.ext (by
    match a with
    | ⟨0, _⟩ => exact lhs5_0 _ _
    | ⟨1, _⟩ => exact (lhs5_1 _ _).trans hk)
  have er : dot_S384x384_S384x64_S384x64_1_0_0_1_n_n.rhsIdx (ix2 d j) ((contrEquiv1 dot_S384x384_S384x64_S384x64_1_0_0_1_n_n 384 rfl rfl).symm k) = ix2 k j := funext fun a => Fin.ext (by
    match a with
    | ⟨0, _⟩ => exact (rhs5_0 _ _).trans hk
    | ⟨1, _⟩ => exact rhs5_1 _ _)
  rw [el, er]

/-- A full chunk of 256 columns starting at `o`. -/
theorem pay4_apply (v2 : Vec Ideal S384x384 .bf16) (v43 : Vec Ideal S1x384x256 .bf16) (X : Cert.Attn.Mat) (W2 : Cert.Attn.Wt)
    (o : ℕ) (ho : o + 256 ≤ 3136)
    (h2 : ∀ (d c : Fin 384), v2 (ix2 d c) = W2 d c)
    (h43 : ∀ (c : Fin 384) (j : Fin 256), v43 (ix3 (0 : Fin 1) c j) = X c ⟨o + j.val, by omega⟩)
    (d : Fin 384) (j : Fin 256) :
    k0_pay4 (F := Ideal) v2 v43 (ix2 d j) = Cert.Attn.valT X W2 d ⟨o + j.val, by omega⟩ := by
  unfold k0_pay4 k0_pay3
  rw [shapeCast_self, truncf_apply, shapeCast_self]
  refine (mm4_apply _ _ d j).trans ?_
  unfold Cert.Attn.valT
  refine Finset.sum_congr rfl fun c _ => ?_
  rw [shapeCast_1ab_ab_apply, h2, h43]

/-- The last chunk: 64 columns starting at 3072. -/
theorem pay5_apply (v2 : Vec Ideal S384x384 .bf16) (v5 : Vec Ideal S1x384x64 .bf16) (X : Cert.Attn.Mat) (W2 : Cert.Attn.Wt)
    (h2 : ∀ (d c : Fin 384), v2 (ix2 d c) = W2 d c)
    (h5 : ∀ (c : Fin 384) (j : Fin 64), v5 (ix3 (0 : Fin 1) c j) = X c ⟨3072 + j.val, by omega⟩)
    (d : Fin 384) (j : Fin 64) :
    k0_pay5 (F := Ideal) v2 v5 (ix2 d j) = Cert.Attn.valT X W2 d ⟨3072 + j.val, by omega⟩ := by
  unfold k0_pay5 k0_pay3
  rw [shapeCast_self, truncf_apply, shapeCast_self]
  refine (mm5_apply _ _ d j).trans ?_
  unfold Cert.Attn.valT
  refine Finset.sum_congr rfl fun c _ => ?_
  rw [shapeCast_1ab_ab_apply, h2, h5]

end Cert.KernelIdeal.Pay

end
-- ==== Proof.PayQ.lean ====
/-
  The arithmetic of one query chunk, read at one entry.

  For a chunk of query positions starting at position `o` the kernel forms the scaled queries of the chunk from the
  first weight matrix and the chunk's columns of the input, their inner products with every column of the input, each
  row's maximum, the exponentials of the differences, the row sums, the products of a value matrix with those exponentials,
  and the quotient by the row sums. Entry `(d, j)` of the chunk's result depends only on column `o + j` of the input among
  the chunk's columns, and is entry `(d, o + j)` of the attention `Attn.outKv` of the whole input, the first weight and the
  value matrix. The same holds for the last, shorter chunk.
-/
import proofs.«426938_j13941463843545_3_alg».proof.Proof.Gen.KernelIdeal.Skeleton
import proofs.«426938_j13941463843545_3_alg».proof.Proof.Spec
import proofs.«426938_j13941463843545_3_alg».proof.Proof.PayV
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Pay

open Cert.KernelIdeal Cert.KernelIdeal.Gen
open Idealize.ShloMosaic Idealize.ShloMosaic.ValueIdx

/-! ## Layout: a column kept by a reduction, and its broadcast along the rows -/

section Layout
variable {α : Type}

/-- A vector cast to a one-column matrix reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A one-column matrix broadcast along the rows reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ## Reductions along the rows -/

section Rows
variable {φ : FTy}

/-- The index over `j` with `m` put on the reduced second axis is `(j, m)`. -/
theorem lift_row {B N : ℕ} (h : (⟨2, ![B, N]⟩ : Shape).Reduces [1] ⟨1, ![B]⟩) (j : Fin B) (m : Fin N) :
    h.lift (ix1 j) m = ix2 j m :=
  funext fun c => Fin.ext (by
    match c with
    | ⟨0, _⟩ => rfl
    | ⟨1, _⟩ => rfl)

/-- A sum along the rows, read at row `j`. -/
theorem rowSum_apply {B N : ℕ} (e : FVec Ideal ⟨2, ![B, N]⟩ φ) (acc : BitVec φ.bits)
    (h : (⟨2, ![B, N]⟩ : Shape).Reduces [1] ⟨1, ![B]⟩) (hφ : FKind.Formats φ) (hacc : acc = FKind.add.neutral φ hφ) (j : Fin B) :
    multiReduction .add [1] ⟨1, ![B]⟩ e acc h hφ hacc (ix1 j) = ∑ m : Fin N, e (ix2 j m) :=
  (Ideal.multiReduction_add_single e acc h hφ hacc (ix1 j)).trans
    (Finset.sum_congr rfl fun m _ => congrArg e (lift_row h j m))

/-- A maximum along the rows, read at row `j`: the fold of `max` over the row from the start word's value. -/
theorem rowMax_apply {B N : ℕ} (s : FVec Ideal ⟨2, ![B, N]⟩ φ) (acc : BitVec φ.bits)
    (h : (⟨2, ![B, N]⟩ : Shape).Reduces [1] ⟨1, ![B]⟩) (hφ : FKind.Formats φ) (hacc : acc = FKind.maximumf.neutral φ hφ) (j : Fin B) :
    multiReduction .maximumf [1] ⟨1, ![B]⟩ s acc h hφ hacc (ix1 j)
      = (Finset.univ : Finset (Fin N)).fold max (Ideal.ofBits φ acc) (fun m => s (ix2 j m)) :=
  (Ideal.multiReduction_maximumf_single s acc h hφ hacc (ix1 j)).trans
    (congrArg ((Finset.univ : Finset (Fin N)).fold max (Ideal.ofBits φ acc)) (funext fun m => congrArg s (lift_row h j m)))

end Rows

/-! ## A chunk of 256 query positions -/

/-! ### Scores: the product over channels of a 384 by 256 matrix, transposed, with a 384 by 3136 matrix, into zero -/

theorem lhsSc256_0 (i : S256x3136.Idx) (q : dot_S384x256_S384x3136_S256x3136_0_0_1_1_n_n.contr.Idx) :
    (dot_S384x256_S384x3136_S256x3136_0_0_1_1_n_n.lhsIdx i q 0).val = (q ⟨0, by decide⟩).val :=
  dot_S384x256_S384x3136_S256x3136_0_0_1_1_n_n.lhsIdx_val_of_single rfl i q
theorem lhsSc256_1 (i : S256x3136.Idx) (q : dot_S384x256_S384x3136_S256x3136_0_0_1_1_n_n.contr.Idx) :
    (dot_S384x256_S384x3136_S256x3136_0_0_1_1_n_n.lhsIdx i q 1).val = (i 0).val := by
  unfold DotDims.lhsIdx
  rw [dif_neg (show ¬(1 : Fin S384x256.rank) ∈ dot_S384x256_S384x3136_S256x3136_0_0_1_1_n_n.lhsBatch by decide), dif_pos (show (1 : Fin S384x256.rank) ∈ dot_S384x256_S384x3136_S256x3136_0_0_1_1_n_n.lhsNonContracting by decide)]
  rfl
theorem rhsSc256_0 (i : S256x3136.Idx) (q : dot_S384x256_S384x3136_S256x3136_0_0_1_1_n_n.contr.Idx) :
    (dot_S384x256_S384x3136_S256x3136_0_0_1_1_n_n.rhsIdx i q 0).val = (q ⟨0, by decide⟩).val :=
  dot_S384x256_S384x3136_S256x3136_0_0_1_1_n_n.rhsIdx_val_of_single rfl i q
theorem rhsSc256_1 (i : S256x3136.Idx) (q : dot_S384x256_S384x3136_S256x3136_0_0_1_1_n_n.contr.Idx) :
    (dot_S384x256_S384x3136_S256x3136_0_0_1_1_n_n.rhsIdx i q 1).val = (i 1).val := by
  unfold DotDims.rhsIdx
  rw [dif_neg (show ¬(1 : Fin S384x3136.rank) ∈ dot_S384x256_S384x3136_S256x3136_0_0_1_1_n_n.rhsBatch by decide), dif_pos (show (1 : Fin S384x3136.rank) ∈ dot_S384x256_S384x3136_S256x3136_0_0_1_1_n_n.rhsNonContracting by decide)]
  rfl

/-- Entry `(j, m)` of the product is the sum over `c` of the left factor at `(c, j)` times the right factor at `(c, m)`. -/
theorem mmSc256_apply (A : FVec Ideal S384x256 .bf16) (B : FVec Ideal S384x3136 .bf16) (j : Fin 256) (m : Fin 3136) :
    matmul dot_S384x256_S384x3136_S256x3136_0_0_1_1_n_n none A B (constant (F := Ideal) S256x3136 .f32 0x00000000#32) (ix2 j m)
      = ∑ c : Fin 384, A (ix2 c j) * B (ix2 c m) := by
  simp only [matmul]
  rw [Ideal.matmul_constant_zero_apply, ← Equiv.sum_comp (contrEquiv1 dot_S384x256_S384x3136_S256x3136_0_0_1_1_n_n 384 rfl rfl).symm]
  refine Finset.sum_congr rfl fun k _ => ?_
  have hk := contrEquiv1_symm_val dot_S384x256_S384x3136_S256x3136_0_0_1_1_n_n 384 rfl rfl k
  have el : dot_S384x256_S384x3136_S256x3136_0_0_1_1_n_n.lhsIdx (ix2 j m) ((contrEquiv1 dot_S384x256_S384x3136_S256x3136_0_0_1_1_n_n 384 rfl rfl).symm k) = ix2 k j := funext fun a => Fin.ext (by
    match a with
    | ⟨0, _⟩ => exact (lhsSc256_0 _ _).trans hk
    | ⟨1, _⟩ => exact lhsSc256_1 _ _)
  have er : dot_S384x256_S384x3136_S256x3136_0_0_1_1_n_n.rhsIdx (ix2 j m) ((contrEquiv1 dot_S384x256_S384x3136_S256x3136_0_0_1_1_n_n 384 rfl rfl).symm k) = ix2 k m := funext fun a => Fin.ext (by
    match a with
    | ⟨0, _⟩ => exact (rhsSc256_0 _ _).trans hk
    | ⟨1, _⟩ => exact rhsSc256_1 _ _)
  rw [el, er]

/-! ### Weighted sums: the product over positions of a 384 by 3136 matrix with a 256 by 3136 matrix, transposed, into zero -/

theorem lhsWs256_0 (i : S384x256.Idx) (q : dot_S384x3136_S256x3136_S384x256_1_1_0_0_n_n.contr.Idx) :
    (dot_S384x3136_S256x3136_S384x256_1_1_0_0_n_n.lhsIdx i q 0).val = (i 0).val := by
  unfold DotDims.lhsIdx
  rw [dif_neg (show ¬(0 : Fin S384x3136.rank) ∈ dot_S384x3136_S256x3136_S384x256_1_1_0_0_n_n.lhsBatch by decide), dif_pos (show (0 : Fin S384x3136.rank) ∈ dot_S384x3136_S256x3136_S384x256_1_1_0_0_n_n.lhsNonContracting by decide)]
  rfl
theorem lhsWs256_1 (i : S384x256.Idx) (q : dot_S384x3136_S256x3136_S384x256_1_1_0_0_n_n.contr.Idx) :
    (dot_S384x3136_S256x3136_S384x256_1_1_0_0_n_n.lhsIdx i q 1).val = (q ⟨0, by decide⟩).val :=
  dot_S384x3136_S256x3136_S384x256_1_1_0_0_n_n.lhsIdx_val_of_single rfl i q
theorem rhsWs256_0 (i : S384x256.Idx) (q : dot_S384x3136_S256x3136_S384x256_1_1_0_0_n_n.contr.Idx) :
    (dot_S384x3136_S256x3136_S384x256_1_1_0_0_n_n.rhsIdx i q 0).val = (i 1).val := by
  unfold DotDims.rhsIdx
  rw [dif_neg (show ¬(0 : Fin S256x3136.rank) ∈ dot_S384x3136_S256x3136_S384x256_1_1_0_0_n_n.rhsBatch by decide), dif_pos (show (0 : Fin S256x3136.rank) ∈ dot_S384x3136_S256x3136_S384x256_1_1_0_0_n_n.rhsNonContracting by decide)]
  rfl
theorem rhsWs256_1 (i : S384x256.Idx) (q : dot_S384x3136_S256x3136_S384x256_1_1_0_0_n_n.contr.Idx) :
    (dot_S384x3136_S256x3136_S384x256_1_1_0_0_n_n.rhsIdx i q 1).val = (q ⟨0, by decide⟩).val :=
  dot_S384x3136_S256x3136_S384x256_1_1_0_0_n_n.rhsIdx_val_of_single rfl i q

/-- Entry `(d, j)` of the product is the sum over `m` of the left factor at `(d, m)` times the right factor at `(j, m)`. -/
theorem mmWs256_apply (A : FVec Ideal S384x3136 .bf16) (B : FVec Ideal S256x3136 .bf16) (d : Fin 384) (j : Fin 256) :
    matmul dot_S384x3136_S256x3136_S384x256_1_1_0_0_n_n none A B (constant (F := Ideal) S384x256 .f32 0x00000000#32) (ix2 d j)
      = ∑ m : Fin 3136, A (ix2 d m) * B (ix2 j m) := by
  simp only [matmul]
  rw [Ideal.matmul_constant_zero_apply, ← Equiv.sum_comp (contrEquiv1 dot_S384x3136_S256x3136_S384x256_1_1_0_0_n_n 3136 rfl rfl).symm]
  refine Finset.sum_congr rfl fun k _ => ?_
  have hk := contrEquiv1_symm_val dot_S384x3136_S256x3136_S384x256_1_1_0_0_n_n 3136 rfl rfl k
  have el : dot_S384x3136_S256x3136_S384x256_1_1_0_0_n_n.lhsIdx (ix2 d j) ((contrEquiv1 dot_S384x3136_S256x3136_S384x256_1_1_0_0_n_n 3136 rfl rfl).symm k) = ix2 d k := funext fun a => Fin.ext (by
    match a with
    | ⟨0, _⟩ => exact lhsWs256_0 _ _
    | ⟨1, _⟩ => exact (lhsWs256_1 _ _).trans hk)
  have er : dot_S384x3136_S256x3136_S384x256_1_1_0_0_n_n.rhsIdx (ix2 d j) ((contrEquiv1 dot_S384x3136_S256x3136_S384x256_1_1_0_0_n_n 3136 rfl rfl).symm k) = ix2 j k := funext fun a => Fin.ext (by
    match a with
    | ⟨0, _⟩ => exact rhsWs256_0 _ _
    | ⟨1, _⟩ => exact (rhsWs256_1 _ _).trans hk)
  rw [el, er]

/-! ### The stages of the chunk's arithmetic -/

/-- The chunk's scaled queries: the first weight matrix times the chunk's columns, times the scale. -/
def qryC (v0 : Vec Ideal S384x384 .bf16) (v43 : Vec Ideal S1x384x256 .bf16) : FVec Ideal S384x256 .bf16 :=
  truncf .bf16
    (mulf
      (matmul dot_S384x384_S384x256_S384x256_1_0_0_1_n_n none (k0_pay2 v0) (shapeCast S384x256 v43 shapeCasts_S1x384x256_S384x256 : FVec Ideal S384x256 .bf16)
        (constant (F := Ideal) S384x256 .f32 0x00000000#32))
      (broadcast S384x256 (Scalar.ofBits (F := Ideal) .f32 0x3D5105EC#32)))
    bitsLt_bf16_f32

/-- The chunk's scores against every position. -/
def scoC (q : FVec Ideal S384x256 .bf16) (v49 : Vec Ideal S1x384x3136 .bf16) : FVec Ideal S256x3136 .f32 :=
  matmul dot_S384x256_S384x3136_S256x3136_0_0_1_1_n_n none q (shapeCast S384x3136 v49 shapeCasts_S1x384x3136_S384x3136 : FVec Ideal S384x3136 .bf16)
    (constant (F := Ideal) S256x3136 .f32 0x00000000#32)

/-- The exponentials of the scores minus their row's maximum. -/
def expC (s : FVec Ideal S256x3136 .f32) : FVec Ideal S256x3136 .f32 :=
  exp
    (subf s
      (broadcastTo S256x3136
        (shapeCast S256x1 (multiReduction (F := Ideal) .maximumf [1] S256 s 0xFF800000#32 reduces_S256x3136_S256 (.inl rfl) rfl)
          shapeCasts_S256_S256x1)
        broadcasts_S256x1_S256x3136))

/-- The value matrix times the exponentials, divided by their row sums, as a block of the result. -/
def outC (e : FVec Ideal S256x3136 .f32) (v60 : Vec Ideal S384x3136 .bf16) : FVec Ideal S1x384x256 .f32 :=
  shapeCast S1x384x256
    (divf
      (matmul (φ₁ := .bf16) dot_S384x3136_S256x3136_S384x256_1_1_0_0_n_n none v60 (truncf .bf16 e bitsLt_bf16_f32)
        (constant (F := Ideal) S384x256 .f32 0x00000000#32))
      (broadcastTo S384x256
        (transpose S1x256 [1, 0]
          (shapeCast S256x1 (multiReduction (F := Ideal) .add [1] S256 e 0x00000000#32 reduces_S256x3136_S256 (.inl rfl) rfl)
            shapeCasts_S256_S256x1)
          transposes_S256x1_p1_0_S1x256)
        broadcasts_S1x256_S384x256))
    shapeCasts_S384x256_S1x384x256

/-- The chunk's payload is the four stages, one after the other. -/
theorem pay6_eq (v0 : Vec Ideal S384x384 .bf16) (v43 : Vec Ideal S1x384x256 .bf16) (v49 : Vec Ideal S1x384x3136 .bf16)
    (v60 : Vec Ideal S384x3136 .bf16) :
    k0_pay6 (F := Ideal) v0 v43 v49 v60 = outC (expC (scoC (qryC v0 v43) v49)) v60 := rfl

/-- A scaled query of the chunk, at channel `d` and the chunk's position `j`. -/
theorem qryC_apply (v0 : Vec Ideal S384x384 .bf16) (v43 : Vec Ideal S1x384x256 .bf16) (X : Cert.Attn.Mat) (W1 : Cert.Attn.Wt)
    (n : Fin 256 → Fin 3136)
    (h0 : ∀ (d c : Fin 384), v0 (ix2 d c) = W1 d c)
    (h43 : ∀ (c : Fin 384) (j : Fin 256), v43 (ix3 (0 : Fin 1) c j) = X c (n j))
    (d : Fin 384) (j : Fin 256) : qryC v0 v43 (ix2 d j) = Cert.Attn.qryT X W1 d (n j) := by
  unfold qryC k0_pay2
  rw [truncf_apply, mulf_apply, broadcast_apply, shapeCast_self, mm4_apply]
  unfold Cert.Attn.qryT
  refine congrArg₂ (· * ·) (Finset.sum_congr rfl fun c _ => ?_) rfl
  rw [shapeCast_1ab_ab_apply, h0, h43]

/-- A score of the chunk: the inner product over channels of the scaled query with a column of the input. -/
theorem scoC_apply (q : FVec Ideal S384x256 .bf16) (v49 : Vec Ideal S1x384x3136 .bf16) (j : Fin 256) (m : Fin 3136) :
    scoC q v49 (ix2 j m) = ∑ c : Fin 384, q (ix2 c j) * v49 (ix3 (0 : Fin 1) c m) := by
  unfold scoC
  rw [mmSc256_apply]
  refine Finset.sum_congr rfl fun c _ => ?_
  rw [shapeCast_1ab_ab_apply]

/-- An exponential of the chunk: of the score minus the maximum of its row. -/
theorem expC_apply (s : FVec Ideal S256x3136 .f32) (j : Fin 256) (m : Fin 3136) :
    expC s (ix2 j m) = Ideal.exp (s (ix2 j m) - Cert.Attn.rowMax fun m' => s (ix2 j m')) := by
  unfold expC
  show Ideal.exp (subf s _ (ix2 j m)) = _
  rw [subf_apply, broadcastTo_a1_ab_apply, shapeCast_a_a1_apply]
  exact congrArg (fun t => Ideal.exp (s (ix2 j m) - t)) (rowMax_apply s _ _ _ _ j)

/-- An entry of the chunk's block of the result: the weighted sum of the values divided by the row sum. -/
theorem outC_apply (e : FVec Ideal S256x3136 .f32) (v60 : Vec Ideal S384x3136 .bf16) (d : Fin 384) (j : Fin 256) :
    outC e v60 (ix3 (0 : Fin 1) d j)
      = Ideal.div (∑ m : Fin 3136, v60 (ix2 d m) * e (ix2 j m)) (∑ m : Fin 3136, e (ix2 j m)) := by
  unfold outC
  rw [shapeCast_ab_1ab_apply, divf_apply, mmWs256_apply, broadcastTo_1b_ab_apply, transpose_ix2_apply, shapeCast_a_a1_apply]
  exact congrArg₂ Ideal.div rfl (rowSum_apply e _ _ _ _ j)

/-- A full chunk of 256 query positions starting at `o`. -/
theorem pay6_apply (v0 : Vec Ideal S384x384 .bf16) (v43 : Vec Ideal S1x384x256 .bf16) (v49 : Vec Ideal S1x384x3136 .bf16)
    (v60 : Vec Ideal S384x3136 .bf16) (X : Cert.Attn.Mat) (W1 : Cert.Attn.Wt) (Vs : Cert.Attn.Mat) (o : ℕ) (ho : o + 256 ≤ 3136)
    (h49 : ∀ (c : Fin 384) (m : Fin 3136), v49 (ix3 (0 : Fin 1) c m) = X c m)
    (h0 : ∀ (d c : Fin 384), v0 (ix2 d c) = W1 d c)
    (h60 : ∀ (d : Fin 384) (m : Fin 3136), v60 (ix2 d m) = Vs d m)
    (h43 : ∀ (c : Fin 384) (j : Fin 256), v43 (ix3 (0 : Fin 1) c j) = X c ⟨o + j.val, by omega⟩)
    (d : Fin 384) (j : Fin 256) :
    k0_pay6 (F := Ideal) v0 v43 v49 v60 (ix3 (0 : Fin 1) d j) = Cert.Attn.outKv X W1 Vs d ⟨o + j.val, by omega⟩ := by
  rw [pay6_eq, outC_apply]
  -- row `j` of the chunk's scores is row `o + j` of the scores of the whole input
  have hS : ∀ m, scoC (qryC v0 v43) v49 (ix2 j m) = Cert.Attn.scoreK X W1 ⟨o + j.val, by omega⟩ m := by
    intro m
    rw [scoC_apply]
    unfold Cert.Attn.scoreK
    exact Finset.sum_congr rfl fun c _ =>
      congrArg₂ (· * ·) (qryC_apply v0 v43 X W1 (fun j => ⟨o + j.val, by omega⟩) h0 h43 c j) (h49 c m)
  -- so the exponentials are those of that row
  have hE : ∀ m, expC (scoC (qryC v0 v43) v49) (ix2 j m) = Cert.Attn.expK X W1 ⟨o + j.val, by omega⟩ m := by
    intro m
    rw [expC_apply, hS m, funext hS]
    rfl
  unfold Cert.Attn.outKv Cert.Attn.denK
  exact congrArg₂ Ideal.div (Finset.sum_congr rfl fun m _ => congrArg₂ (· * ·) (h60 d m) (hE m))
    (Finset.sum_congr rfl fun m _ => hE m)

/-! ## The last chunk: 64 query positions -/

/-! ### Scores: the product over channels of a 384 by 64 matrix, transposed, with a 384 by 3136 matrix, into zero -/

theorem lhsSc64_0 (i : S64x3136.Idx) (q : dot_S384x64_S384x3136_S64x3136_0_0_1_1_n_n.contr.Idx) :
    (dot_S384x64_S384x3136_S64x3136_0_0_1_1_n_n.lhsIdx i q 0).val = (q ⟨0, by decide⟩).val :=
  dot_S384x64_S384x3136_S64x3136_0_0_1_1_n_n.lhsIdx_val_of_single rfl i q
theorem lhsSc64_1 (i : S64x3136.Idx) (q : dot_S384x64_S384x3136_S64x3136_0_0_1_1_n_n.contr.Idx) :
    (dot_S384x64_S384x3136_S64x3136_0_0_1_1_n_n.lhsIdx i q 1).val = (i 0).val := by
  unfold DotDims.lhsIdx
  rw [dif_neg (show ¬(1 : Fin S384x64.rank) ∈ dot_S384x64_S384x3136_S64x3136_0_0_1_1_n_n.lhsBatch by decide), dif_pos (show (1 : Fin S384x64.rank) ∈ dot_S384x64_S384x3136_S64x3136_0_0_1_1_n_n.lhsNonContracting by decide)]
  rfl
theorem rhsSc64_0 (i : S64x3136.Idx) (q : dot_S384x64_S384x3136_S64x3136_0_0_1_1_n_n.contr.Idx) :
    (dot_S384x64_S384x3136_S64x3136_0_0_1_1_n_n.rhsIdx i q 0).val = (q ⟨0, by decide⟩).val :=
  dot_S384x64_S384x3136_S64x3136_0_0_1_1_n_n.rhsIdx_val_of_single rfl i q
theorem rhsSc64_1 (i : S64x3136.Idx) (q : dot_S384x64_S384x3136_S64x3136_0_0_1_1_n_n.contr.Idx) :
    (dot_S384x64_S384x3136_S64x3136_0_0_1_1_n_n.rhsIdx i q 1).val = (i 1).val := by
  unfold DotDims.rhsIdx
  rw [dif_neg (show ¬(1 : Fin S384x3136.rank) ∈ dot_S384x64_S384x3136_S64x3136_0_0_1_1_n_n.rhsBatch by decide), dif_pos (show (1 : Fin S384x3136.rank) ∈ dot_S384x64_S384x3136_S64x3136_0_0_1_1_n_n.rhsNonContracting by decide)]
  rfl

/-- Entry `(j, m)` of the product is the sum over `c` of the left factor at `(c, j)` times the right factor at `(c, m)`. -/
theorem mmSc64_apply (A : FVec Ideal S384x64 .bf16) (B : FVec Ideal S384x3136 .bf16) (j : Fin 64) (m : Fin 3136) :
    matmul dot_S384x64_S384x3136_S64x3136_0_0_1_1_n_n none A B (constant (F := Ideal) S64x3136 .f32 0x00000000#32) (ix2 j m)
      = ∑ c : Fin 384, A (ix2 c j) * B (ix2 c m) := by
  simp only [matmul]
  rw [Ideal.matmul_constant_zero_apply, ← Equiv.sum_comp (contrEquiv1 dot_S384x64_S384x3136_S64x3136_0_0_1_1_n_n 384 rfl rfl).symm]
  refine Finset.sum_congr rfl fun k _ => ?_
  have hk := contrEquiv1_symm_val dot_S384x64_S384x3136_S64x3136_0_0_1_1_n_n 384 rfl rfl k
  have el : dot_S384x64_S384x3136_S64x3136_0_0_1_1_n_n.lhsIdx (ix2 j m) ((contrEquiv1 dot_S384x64_S384x3136_S64x3136_0_0_1_1_n_n 384 rfl rfl).symm k) = ix2 k j := funext fun a => Fin.ext (by
    match a with
    | ⟨0, _⟩ => exact (lhsSc64_0 _ _).trans hk
    | ⟨1, _⟩ => exact lhsSc64_1 _ _)
  have er : dot_S384x64_S384x3136_S64x3136_0_0_1_1_n_n.rhsIdx (ix2 j m) ((contrEquiv1 dot_S384x64_S384x3136_S64x3136_0_0_1_1_n_n 384 rfl rfl).symm k) = ix2 k m := funext fun a => Fin.ext (by
    match a with
    | ⟨0, _⟩ => exact (rhsSc64_0 _ _).trans hk
    | ⟨1, _⟩ => exact rhsSc64_1 _ _)
  rw [el, er]

/-! ### Weighted sums: the product over positions of a 384 by 3136 matrix with a 64 by 3136 matrix, transposed, into zero -/

theorem lhsWs64_0 (i : S384x64.Idx) (q : dot_S384x3136_S64x3136_S384x64_1_1_0_0_n_n.contr.Idx) :
    (dot_S384x3136_S64x3136_S384x64_1_1_0_0_n_n.lhsIdx i q 0).val = (i 0).val := by
  unfold DotDims.lhsIdx
  rw [dif_neg (show ¬(0 : Fin S384x3136.rank) ∈ dot_S384x3136_S64x3136_S384x64_1_1_0_0_n_n.lhsBatch by decide), dif_pos (show (0 : Fin S384x3136.rank) ∈ dot_S384x3136_S64x3136_S384x64_1_1_0_0_n_n.lhsNonContracting by decide)]
  rfl
theorem lhsWs64_1 (i : S384x64.Idx) (q : dot_S384x3136_S64x3136_S384x64_1_1_0_0_n_n.contr.Idx) :
    (dot_S384x3136_S64x3136_S384x64_1_1_0_0_n_n.lhsIdx i q 1).val = (q ⟨0, by decide⟩).val :=
  dot_S384x3136_S64x3136_S384x64_1_1_0_0_n_n.lhsIdx_val_of_single rfl i q
theorem rhsWs64_0 (i : S384x64.Idx) (q : dot_S384x3136_S64x3136_S384x64_1_1_0_0_n_n.contr.Idx) :
    (dot_S384x3136_S64x3136_S384x64_1_1_0_0_n_n.rhsIdx i q 0).val = (i 1).val := by
  unfold DotDims.rhsIdx
  rw [dif_neg (show ¬(0 : Fin S64x3136.rank) ∈ dot_S384x3136_S64x3136_S384x64_1_1_0_0_n_n.rhsBatch by decide), dif_pos (show (0 : Fin S64x3136.rank) ∈ dot_S384x3136_S64x3136_S384x64_1_1_0_0_n_n.rhsNonContracting by decide)]
  rfl
theorem rhsWs64_1 (i : S384x64.Idx) (q : dot_S384x3136_S64x3136_S384x64_1_1_0_0_n_n.contr.Idx) :
    (dot_S384x3136_S64x3136_S384x64_1_1_0_0_n_n.rhsIdx i q 1).val = (q ⟨0, by decide⟩).val :=
  dot_S384x3136_S64x3136_S384x64_1_1_0_0_n_n.rhsIdx_val_of_single rfl i q

/-- Entry `(d, j)` of the product is the sum over `m` of the left factor at `(d, m)` times the right factor at `(j, m)`. -/
theorem mmWs64_apply (A : FVec Ideal S384x3136 .bf16) (B : FVec Ideal S64x3136 .bf16) (d : Fin 384) (j : Fin 64) :
    matmul dot_S384x3136_S64x3136_S384x64_1_1_0_0_n_n none A B (constant (F := Ideal) S384x64 .f32 0x00000000#32) (ix2 d j)
      = ∑ m : Fin 3136, A (ix2 d m) * B (ix2 j m) := by
  simp only [matmul]
  rw [Ideal.matmul_constant_zero_apply, ← Equiv.sum_comp (contrEquiv1 dot_S384x3136_S64x3136_S384x64_1_1_0_0_n_n 3136 rfl rfl).symm]
  refine Finset.sum_congr rfl fun k _ => ?_
  have hk := contrEquiv1_symm_val dot_S384x3136_S64x3136_S384x64_1_1_0_0_n_n 3136 rfl rfl k
  have el : dot_S384x3136_S64x3136_S384x64_1_1_0_0_n_n.lhsIdx (ix2 d j) ((contrEquiv1 dot_S384x3136_S64x3136_S384x64_1_1_0_0_n_n 3136 rfl rfl).symm k) = ix2 d k := funext fun a => Fin.ext (by
    match a with
    | ⟨0, _⟩ => exact lhsWs64_0 _ _
    | ⟨1, _⟩ => exact (lhsWs64_1 _ _).trans hk)
  have er : dot_S384x3136_S64x3136_S384x64_1_1_0_0_n_n.rhsIdx (ix2 d j) ((contrEquiv1 dot_S384x3136_S64x3136_S384x64_1_1_0_0_n_n 3136 rfl rfl).symm k) = ix2 j k := funext fun a => Fin.ext (by
    match a with
    | ⟨0, _⟩ => exact rhsWs64_0 _ _
    | ⟨1, _⟩ => exact (rhsWs64_1 _ _).trans hk)
  rw [el, er]

/-! ### The stages of the last chunk's arithmetic -/

/-- The last chunk's scaled queries: the first weight matrix times the chunk's columns, times the scale. -/
def qryL (v0 : Vec Ideal S384x384 .bf16) (v13 : Vec Ideal S1x384x64 .bf16) : FVec Ideal S384x64 .bf16 :=
  truncf .bf16
    (mulf
      (matmul dot_S384x384_S384x64_S384x64_1_0_0_1_n_n none (k0_pay2 v0) (shapeCast S384x64 v13 shapeCasts_S1x384x64_S384x64 : FVec Ideal S384x64 .bf16)
        (constant (F := Ideal) S384x64 .f32 0x00000000#32))
      (broadcast S384x64 (Scalar.ofBits (F := Ideal) .f32 0x3D5105EC#32)))
    bitsLt_bf16_f32

/-- The last chunk's scores against every position. -/
def scoL (q : FVec Ideal S384x64 .bf16) (v19 : Vec Ideal S1x384x3136 .bf16) : FVec Ideal S64x3136 .f32 :=
  matmul dot_S384x64_S384x3136_S64x3136_0_0_1_1_n_n none q (shapeCast S384x3136 v19 shapeCasts_S1x384x3136_S384x3136 : FVec Ideal S384x3136 .bf16)
    (constant (F := Ideal) S64x3136 .f32 0x00000000#32)

/-- The exponentials of the scores minus their row's maximum. -/
def expL (s : FVec Ideal S64x3136 .f32) : FVec Ideal S64x3136 .f32 :=
  exp
    (subf s
      (broadcastTo S64x3136
        (shapeCast S64x1 (multiReduction (F := Ideal) .maximumf [1] S64 s 0xFF800000#32 reduces_S64x3136_S64 (.inl rfl) rfl)
          shapeCasts_S64_S64x1)
        broadcasts_S64x1_S64x3136))

/-- The last chunk's exponentials are the three stages, one after the other. -/
theorem pay7_eq (v0 : Vec Ideal S384x384 .bf16) (v13 : Vec Ideal S1x384x64 .bf16) (v19 : Vec Ideal S1x384x3136 .bf16) :
    k0_pay7 (F := Ideal) v0 v13 v19 = expL (scoL (qryL v0 v13) v19) := rfl

/-- A scaled query of the last chunk, at channel `d` and the chunk's position `j`. -/
theorem qryL_apply (v0 : Vec Ideal S384x384 .bf16) (v13 : Vec Ideal S1x384x64 .bf16) (X : Cert.Attn.Mat) (W1 : Cert.Attn.Wt)
    (n : Fin 64 → Fin 3136)
    (h0 : ∀ (d c : Fin 384), v0 (ix2 d c) = W1 d c)
    (h13 : ∀ (c : Fin 384) (j : Fin 64), v13 (ix3 (0 : Fin 1) c j) = X c (n j))
    (d : Fin 384) (j : Fin 64) : qryL v0 v13 (ix2 d j) = Cert.Attn.qryT X W1 d (n j) := by
  unfold qryL k0_pay2
  rw [truncf_apply, mulf_apply, broadcast_apply, shapeCast_self, mm5_apply]
  unfold Cert.Attn.qryT
  refine congrArg₂ (· * ·) (Finset.sum_congr rfl fun c _ => ?_) rfl
  rw [shapeCast_1ab_ab_apply, h0, h13]

/-- A score of the last chunk: the inner product over channels of the scaled query with a column of the input. -/
theorem scoL_apply (q : FVec Ideal S384x64 .bf16) (v19 : Vec Ideal S1x384x3136 .bf16) (j : Fin 64) (m : Fin 3136) :
    scoL q v19 (ix2 j m) = ∑ c : Fin 384, q (ix2 c j) * v19 (ix3 (0 : Fin 1) c m) := by
  unfold scoL
  rw [mmSc64_apply]
  refine Finset.sum_congr rfl fun c _ => ?_
  rw [shapeCast_1ab_ab_apply]

/-- An exponential of the last chunk: of the score minus the maximum of its row. -/
theorem expL_apply (s : FVec Ideal S64x3136 .f32) (j : Fin 64) (m : Fin 3136) :
    expL s (ix2 j m) = Ideal.exp (s (ix2 j m) - Cert.Attn.rowMax fun m' => s (ix2 j m')) := by
  unfold expL
  show Ideal.exp (subf s _ (ix2 j m)) = _
  rw [subf_apply, broadcastTo_a1_ab_apply, shapeCast_a_a1_apply]
  exact congrArg (fun t => Ideal.exp (s (ix2 j m) - t)) (rowMax_apply s _ _ _ _ j)

/-- An entry of the last chunk's block of the result: the weighted sum of the values divided by the row sum. -/
theorem pay1_read (e : FVec Ideal S64x3136 .f32) (v30 : Vec Ideal S384x3136 .bf16) (d : Fin 384) (j : Fin 64) :
    k0_pay1 (F := Ideal) e v30 (ix3 (0 : Fin 1) d j)
      = Ideal.div (∑ m : Fin 3136, v30 (ix2 d m) * e (ix2 j m)) (∑ m : Fin 3136, e (ix2 j m)) := by
  unfold k0_pay1
  rw [shapeCast_ab_1ab_apply, divf_apply, mmWs64_apply, broadcastTo_1b_ab_apply, transpose_ix2_apply, shapeCast_a_a1_apply]
  exact congrArg₂ Ideal.div rfl (rowSum_apply e _ _ _ _ j)

/-- The last chunk: 64 query positions starting at 3072. -/
theorem pay1_apply (v0 : Vec Ideal S384x384 .bf16) (v13 : Vec Ideal S1x384x64 .bf16) (v19 : Vec Ideal S1x384x3136 .bf16)
    (v30 : Vec Ideal S384x3136 .bf16) (X : Cert.Attn.Mat) (W1 : Cert.Attn.Wt) (Vs : Cert.Attn.Mat)
    (h19 : ∀ (c : Fin 384) (m : Fin 3136), v19 (ix3 (0 : Fin 1) c m) = X c m)
    (h0 : ∀ (d c : Fin 384), v0 (ix2 d c) = W1 d c)
    (h30 : ∀ (d : Fin 384) (m : Fin 3136), v30 (ix2 d m) = Vs d m)
    (h13 : ∀ (c : Fin 384) (j : Fin 64), v13 (ix3 (0 : Fin 1) c j) = X c ⟨3072 + j.val, by omega⟩)
    (d : Fin 384) (j : Fin 64) :
    k0_pay1 (F := Ideal) (k0_pay7 (F := Ideal) v0 v13 v19) v30 (ix3 (0 : Fin 1) d j)
      = Cert.Attn.outKv X W1 Vs d ⟨3072 + j.val, by omega⟩ := by
  rw [pay7_eq, pay1_read]
  -- row `j` of the chunk's scores is row `3072 + j` of the scores of the whole input
  have hS : ∀ m, scoL (qryL v0 v13) v19 (ix2 j m) = Cert.Attn.scoreK X W1 ⟨3072 + j.val, by omega⟩ m := by
    intro m
    rw [scoL_apply]
    unfold Cert.Attn.scoreK
    exact Finset.sum_congr rfl fun c _ =>
      congrArg₂ (· * ·) (qryL_apply v0 v13 X W1 (fun j => ⟨3072 + j.val, by omega⟩) h0 h13 c j) (h19 c m)
  -- so the exponentials are those of that row
  have hE : ∀ m, expL (scoL (qryL v0 v13) v19) (ix2 j m) = Cert.Attn.expK X W1 ⟨3072 + j.val, by omega⟩ m := by
    intro m
    rw [expL_apply, hS m, funext hS]
    rfl
  unfold Cert.Attn.outKv Cert.Attn.denK
  exact congrArg₂ Ideal.div (Finset.sum_congr rfl fun m _ => congrArg₂ (· * ·) (h30 d m) (hE m))
    (Finset.sum_congr rfl fun m _ => hE m)

end Cert.KernelIdeal.Pay

end
-- ==== Proof.KSpec.lean ====
/-
  What one grid point of the kernel leaves in the output's block, as a function of the three input blocks: the
  attention (`Attn.outK`) of the one batch the input block holds and the two weights, at channel and position.
-/
import proofs.«426938_j13941463843545_3_alg».proof.KernelIdeal
import proofs.«426938_j13941463843545_3_alg».proof.Proof.Spec3
import Idealize.ShloMosaic.Lib.ValueIdx

noncomputable section

namespace Cert.KernelIdeal.KSpec

open Cert.KernelIdeal
open Idealize.ShloMosaic Idealize.ShloMosaic.ValueIdx

/-- An input block (one batch) as a matrix, and a weight block as a matrix. -/
def matOf (x0 : Vec Ideal S1x384x3136 .bf16) : Cert.Attn.Mat := fun c p => x0 (ix3 (0 : Fin 1) c p)
def wtOfB (x1 : Vec Ideal S384x384 .bf16) : Cert.Attn.Wt := fun d c => x1 (ix2 d c)

/-- The output block of one grid point. -/
def blockOut (x0 : Vec Ideal S1x384x3136 .bf16) (x1 x2 : Vec Ideal S384x384 .bf16) : Vec Ideal S1x384x3136 .f32 :=
  fun y => Cert.Attn.outK (matOf x0) (wtOfB x1) (wtOfB x2) (y 1) (y 2)

end Cert.KernelIdeal.KSpec

end
-- ==== Proof.KPieces.lean ====
/-
  The pieces one grid point of the kernel writes, spelt out, and what they add up to.

  The body first fills its scratch buffer with the value matrix `w2 · x`: twelve chunks of 256 columns written by the
  first loop and a last chunk of 64 columns. It then writes the output block: twelve chunks of 256 positions by the
  second loop and a last chunk of 64, each chunk's payload the attention arithmetic of that chunk of queries over the
  whole input block and the whole scratch. The scratch pieces tile the scratch and every one of them is the
  corresponding block of `Attn.valT`; the output pieces tile the output block and every one of them is the
  corresponding block of `Attn.outK`.
-/
import proofs.«426938_j13941463843545_3_alg».proof.Proof.Gen.KernelIdeal.Loops
import proofs.«426938_j13941463843545_3_alg».proof.Proof.PayQ
import proofs.«426938_j13941463843545_3_alg».proof.Proof.PayV
import proofs.«426938_j13941463843545_3_alg».proof.Proof.KSpec
import Idealize.ShloMosaic.Lib.Pipeline.Value
import Idealize.ShloMosaic.Lib.Pipeline.FrameBody
import Idealize.ShloMosaic.Lib.Tactic

set_option maxRecDepth 16384

noncomputable section

namespace Cert.KernelIdeal.KPieces

open Cert.KernelIdeal Cert.KernelIdeal.Gen Cert.KernelIdeal.KSpec
open Idealize.ShloMosaic Idealize.ShloMosaic.TcCoe Idealize.ShloMosaic.ValueIdx
open Idealize.SL.Sem

variable (c : Dev nD) (i : grid0.Coords) (arg1 : Memref sig .tc .vmem S1x384x3136 .bf16) (harg1 : arg1.IsWhole) (arg2 : Memref sig .tc .vmem S384x384 .bf16) (harg2 : arg2.IsWhole) (arg3 : Memref sig .tc .vmem S384x384 .bf16) (harg3 : arg3.IsWhole) (arg4 : Memref sig .tc .vmem S1x384x3136 .f32) (harg4 : arg4.IsWhole) (arg5 : Memref sig .tc .vmem S384x3136 .bf16) (harg5 : arg5.IsWhole)
variable (x0 : Vec Ideal S1x384x3136 .bf16) (x1 x2 : Vec Ideal S384x384 .bf16)

/-- The first and the second weight as the body loads them. -/
abbrev w1L : Vec Ideal S384x384 .bf16 :=
  View.readAt (Elt Ideal) arg2.view (Rect.unit (s := S384x384) ![0, 0] S384x384.size inb_S384x384_S384x384_0_0).toLoadRect (harg2.unread x1)
abbrev w2L : Vec Ideal S384x384 .bf16 :=
  View.readAt (Elt Ideal) arg3.view (Rect.unit (s := S384x384) ![0, 0] S384x384.size inb_S384x384_S384x384_0_0).toLoadRect (harg3.unread x2)
/-- The input block as the body loads it whole, and its last 64 columns. -/
abbrev xL : Vec Ideal S1x384x3136 .bf16 :=
  View.readAt (Elt Ideal) arg1.view (Rect.unit (s := S1x384x3136) ![0, 0, 0] S1x384x3136.size inb_S1x384x3136_S1x384x3136_0_0_0).toLoadRect (harg1.unread x0)
abbrev xTailL : Vec Ideal S1x384x64 .bf16 :=
  View.readAt (Elt Ideal) arg1.view (Rect.unit (s := S1x384x3136) ![0, 0, 3072] S1x384x64.size inb_S1x384x3136_S1x384x64_0_0_3072).toLoadRect (harg1.unread x0)

/-- The scratch's pieces, last first: the last chunk, then the first loop's twelve. -/
def L5 : List (View.Piece (Elt Ideal) S384x3136 .bf16) :=
  ⟨Rect.unit (s := S384x3136) ![0, 3072] S384x64.size inb_S384x3136_S384x64_0_3072, k0_pay5 (F := Ideal) (w2L arg3 harg3 x2) (xTailL arg1 harg1 x0)⟩
    :: pb_k0_t1 (F := Ideal) Variants.none c none i arg1 harg1 arg2 harg2 arg3 harg3 arg4 harg4 arg5 harg5 (w2L arg3 harg3 x2) (harg1.unread x0)
        (Scf.trips k0_t1_loop.lb k0_t1_loop.ub k0_t1_loop.st)

/-- What the scratch holds when the second loop starts. -/
def X5c : BufTy.Contents (Elt Ideal) arg5.view.ty := harg5.unread (View.canon (L5 c i arg1 harg1 arg2 harg2 arg3 harg3 arg4 harg4 arg5 harg5 x0 x2))

/-- The scratch as the body loads it whole. -/
abbrev vL : Vec Ideal S384x3136 .bf16 :=
  View.readAt (Elt Ideal) arg5.view (Rect.unit (s := S384x3136) ![0, 0] S384x3136.size inb_S384x3136_S384x3136_0_0).toLoadRect (X5c c i arg1 harg1 arg2 harg2 arg3 harg3 arg4 harg4 arg5 harg5 x0 x2)

/-- The output block's pieces, last first: the last chunk, then the second loop's twelve. -/
def L3 : List (View.Piece (Elt Ideal) S1x384x3136 .f32) :=
  ⟨Rect.unit (s := S1x384x3136) ![0, 0, 3072] S1x384x64.size inb_S1x384x3136_S1x384x64_0_0_3072,
      k0_pay1 (F := Ideal) (k0_pay7 (F := Ideal) (w1L arg2 harg2 x1) (xTailL arg1 harg1 x0) (xL arg1 harg1 x0)) (vL c i arg1 harg1 arg2 harg2 arg3 harg3 arg4 harg4 arg5 harg5 x0 x2)⟩
    :: pb_k0_t2 (F := Ideal) Variants.none c none i arg1 harg1 arg2 harg2 arg3 harg3 arg4 harg4 arg5 harg5 (w1L arg2 harg2 x1) (harg1.unread x0) (X5c c i arg1 harg1 arg2 harg2 arg3 harg3 arg4 harg4 arg5 harg5 x0 x2)
        (Scf.trips k0_t2_loop.lb k0_t2_loop.ub k0_t2_loop.st)

end Cert.KernelIdeal.KPieces

end
-- ==== Proof.KScratch.lean ====
/-
  The scratch buffer after the first loop and the store of the last chunk holds the value matrix.

  The thirteen pieces — twelve chunks of 256 columns and one of 64 — tile the 384 by 3136 scratch, and the piece
  that starts at column `o` holds, at `(d, j)`, the sum over channels `c` of the second weight at `(d, c)` times the
  input at `(c, o + j)`: entry `(d, o + j)` of `Attn.valT`. So the pieces read back, at every entry, as `Attn.valT`.
-/
import proofs.«426938_j13941463843545_3_alg».proof.Proof.KPieces
import Idealize.ShloMosaic.Lib.Pipeline.Value
import Idealize.ShloMosaic.Lib.Pipeline.FrameBody
import Idealize.ShloMosaic.Lib.Tactic

set_option maxRecDepth 16384

noncomputable section

namespace Cert.KernelIdeal.KScratch

open Cert.KernelIdeal Cert.KernelIdeal.Gen Cert.KernelIdeal.KSpec Cert.KernelIdeal.KPieces
open Idealize.ShloMosaic Idealize.ShloMosaic.TcCoe Idealize.ShloMosaic.ValueIdx
open Idealize.SL.Sem

variable (c : Dev nD) (i : grid0.Coords) (arg1 : Memref sig .tc .vmem S1x384x3136 .bf16) (harg1 : arg1.IsWhole) (arg2 : Memref sig .tc .vmem S384x384 .bf16) (harg2 : arg2.IsWhole) (arg3 : Memref sig .tc .vmem S384x384 .bf16) (harg3 : arg3.IsWhole) (arg4 : Memref sig .tc .vmem S1x384x3136 .f32) (harg4 : arg4.IsWhole) (arg5 : Memref sig .tc .vmem S384x3136 .bf16) (harg5 : arg5.IsWhole)
variable (x0 : Vec Ideal S1x384x3136 .bf16) (x1 x2 : Vec Ideal S384x384 .bf16)

theorem hz2 : (![0, 0] : Fin 2 → Nat) = fun _ => 0 := funext fun a => by fin_cases a <;> rfl

/-- The second weight as loaded is the second weight. -/
theorem w2L_eq : w2L arg3 harg3 x2 = x2 := by
  simp only [View.readAt_eq_ld, harg3.read_unread, View.ld_unit_zero (S := S384x384) hz2]

/-- The last 64 columns of the input block as loaded. -/
theorem xTailL_apply (ch : Fin 384) (j : Fin 64) :
    xTailL arg1 harg1 x0 (ix3 (0 : Fin 1) ch j) = x0 (ix3 (0 : Fin 1) ch ⟨3072 + j.val, by omega⟩) := by
  simp only [View.readAt_eq_ld, harg1.read_unread]
  refine congrArg x0 (funext fun a => Fin.ext ?_)
  match a with
  | ⟨0, _⟩ => rfl
  | ⟨1, _⟩ => show 0 + 1 * ch.val = ch.val; omega
  | ⟨2, _⟩ => show 3072 + 1 * j.val = 3072 + j.val; omega

/-- A chunk of 256 columns of the input block as loaded by trip `k`. -/
theorem chunk_apply (k : Fin k0_t1_loop.trips) (ch : Fin 384) (j : Fin 256) :
    View.readAt (Elt Ideal) arg1.view (Rect.unit (s := S1x384x3136) (k0_off1 k) S1x384x256.size (k0_off1_inb k)).toLoadRect (harg1.unread x0) (ix3 (0 : Fin 1) ch j)
      = x0 (ix3 (0 : Fin 1) ch ⟨256 * k.val + j.val, by have := k.isLt; have := k0_t1_abs.2.1; omega⟩) := by
  simp only [View.readAt_eq_ld, harg1.read_unread]
  refine congrArg x0 (funext fun a => Fin.ext ?_)
  match a with
  | ⟨0, _⟩ => show k0_off1 k 0 + 1 * 0 = 0; rw [k0_off1_eq]; rfl
  | ⟨1, _⟩ => show k0_off1 k 1 + 1 * ch.val = ch.val; rw [k0_off1_eq]; show 0 + 1 * ch.val = ch.val; omega
  | ⟨2, _⟩ => show k0_off1 k 2 + 1 * j.val = 256 * k.val + j.val; rw [k0_off1_eq]; show 256 * k.val + 1 * j.val = _; omega

/-- Trip `k` of the first loop writes one piece. -/
theorem trip1_eq (v2 : Vec Ideal S384x384 .bf16) (X1 : BufTy.Contents (Elt Ideal) arg1.view.ty) (k : Fin k0_t1_loop.trips) :
    tripL_k0_t1 (F := Ideal) Variants.none c none i arg1 harg1 arg2 harg2 arg3 harg3 arg4 harg4 arg5 harg5 v2 X1 k
      = [⟨Rect.unit (s := S384x3136) (k0_off2 k) S384x256.size (k0_off2_inb k),
          k0_pay4 (F := Ideal) v2 (View.readAt (Elt Ideal) arg1.view (Rect.unit (s := S1x384x3136) (k0_off1 k) S1x384x256.size (k0_off1_inb k)).toLoadRect X1)⟩] := by
  unfold tripL_k0_t1 trip_k0_t1
  rfl

/-- The value matrix as a function of the scratch's index. -/
abbrev G : S384x3136.Idx → EReal := fun y => Cert.Attn.valT (matOf x0) (wtOfB x2) (y 0) (y 1)

local notation "PB" => pb_k0_t1 (F := Ideal) Variants.none c none i arg1 harg1 arg2 harg2 arg3 harg3 arg4 harg4 arg5 harg5 (w2L arg3 harg3 x2) (harg1.unread x0)

/-- The piece trip `k` writes. -/
abbrev piece1 (k : Fin k0_t1_loop.trips) : View.Piece (Elt Ideal) S384x3136 .bf16 :=
  ⟨Rect.unit (s := S384x3136) (k0_off2 k) S384x256.size (k0_off2_inb k),
    k0_pay4 (F := Ideal) (w2L arg3 harg3 x2) (View.readAt (Elt Ideal) arg1.view (Rect.unit (s := S1x384x3136) (k0_off1 k) S1x384x256.size (k0_off1_inb k)).toLoadRect (harg1.unread x0))⟩

theorem trips_le : k0_t1_loop.trips ≤ 12 := k0_t1_abs.2.1

/-- Trip `k`'s piece is the block of the value matrix at columns `256 k` to `256 k + 255`. -/
theorem piece1_G (k : Fin k0_t1_loop.trips) (x : (piece1 arg1 harg1 arg3 harg3 x0 x2 k).1.shape.Idx) :
    (piece1 arg1 harg1 arg3 harg3 x0 x2 k).2 x = G x0 x2 ((piece1 arg1 harg1 arg3 harg3 x0 x2 k).1.emb x) := by
  obtain ⟨d, j, rfl⟩ : ∃ (d : Fin 384) (j : Fin 256), x = ix2 d j := ⟨x 0, x 1, eq_ix2 x⟩
  have hk : k.val < 12 := Nat.lt_of_lt_of_le k.isLt trips_le
  refine (Pay.pay4_apply _ _ (matOf x0) (wtOfB x2) (256 * k.val) (by omega)
    (fun d ch => by rw [w2L_eq]; rfl) (fun ch j => chunk_apply arg1 harg1 x0 k ch j) d j).trans ?_
  have e0 : (Rect.unit (s := S384x3136) (k0_off2 k) S384x256.size (k0_off2_inb k)).emb (ix2 d j) 0 = d :=
    Fin.ext (by show k0_off2 k 0 + 1 * d.val = d.val; rw [k0_off2_eq]; show 0 + 1 * d.val = d.val; omega)
  have e1 : (Rect.unit (s := S384x3136) (k0_off2 k) S384x256.size (k0_off2_inb k)).emb (ix2 d j) 1 = (⟨256 * k.val + j.val, by omega⟩ : Fin 3136) :=
    Fin.ext (by show k0_off2 k 1 + 1 * j.val = 256 * k.val + j.val; rw [k0_off2_eq]; show 256 * k.val + 1 * j.val = _; omega)
  exact (congrArg₂ (Cert.Attn.valT (matOf x0) (wtOfB x2)) e0 e1).symm

/-- The pieces of the first `n` trips: trip `n`'s piece in front of those of the trips before it. -/
theorem pb_succ (n : ℕ) (hn : n < k0_t1_loop.trips) :
    PB (n + 1) = piece1 arg1 harg1 arg3 harg3 x0 x2 ⟨n, hn⟩ :: PB n :=
  (pb_k0_t1_succ (F := Ideal) Variants.none c none i arg1 harg1 arg2 harg2 arg3 harg3 arg4 harg4 arg5 harg5 (w2L arg3 harg3 x2) (harg1.unread x0) ⟨n, hn⟩).trans (by rw [trip1_eq]; rfl)

/-- Every piece of the first `n` trips is a block of the value matrix. -/
theorem pb_G : ∀ n, n ≤ k0_t1_loop.trips → ∀ p ∈ PB n, ∀ x : p.1.shape.Idx, p.2 x = G x0 x2 (p.1.emb x)
  | 0, _, p, hp, _ => absurd hp List.not_mem_nil
  | n + 1, hn, p, hp, x => by
    have hn' : n < k0_t1_loop.trips := hn
    rw [pb_succ c i arg1 harg1 arg2 harg2 arg3 harg3 arg4 harg4 arg5 harg5 x0 x2 n hn'] at hp
    rcases List.mem_cons.mp hp with h | h
    · subst h
      exact piece1_G arg1 harg1 arg3 harg3 x0 x2 ⟨n, hn'⟩ x
    · exact pb_G n (Nat.le_of_lt hn') p h x

/-- Trip `k`'s piece is among the pieces of the first `n` trips when `k < n`. -/
theorem mem_pb : ∀ n, n ≤ k0_t1_loop.trips → ∀ k : Fin k0_t1_loop.trips, k.val < n → piece1 arg1 harg1 arg3 harg3 x0 x2 k ∈ PB n
  | 0, _, k, hk => absurd hk (Nat.not_lt_zero _)
  | n + 1, hn, k, hk => by
    have hn' : n < k0_t1_loop.trips := hn
    rw [pb_succ c i arg1 harg1 arg2 harg2 arg3 harg3 arg4 harg4 arg5 harg5 x0 x2 n hn']
    rcases Nat.lt_succ_iff_lt_or_eq.mp hk with h | h
    · exact List.mem_cons_of_mem _ (mem_pb n (Nat.le_of_lt hn') k h)
    · have e : k = ⟨n, hn'⟩ := Fin.ext h
      subst e
      exact List.mem_cons_self

theorem trips_eq : k0_t1_loop.trips = 12 := by decide

/-- The thirteen pieces tile the scratch: column `q` is in the last piece from 3072 on, else in trip `q / 256`'s. -/
theorem cover (d : Fin 384) (q : Fin 3136) :
    ∃ p ∈ L5 c i arg1 harg1 arg2 harg2 arg3 harg3 arg4 harg4 arg5 harg5 x0 x2, (ix2 d q : S384x3136.Idx) ∈ p.1.set := by
  unfold L5
  by_cases hq : 3072 ≤ q.val
  · refine ⟨_, List.mem_cons_self, ?_⟩
    rw [Rect.mem_set_unit]
    intro a
    match a with
    | ⟨0, _⟩ => exact ⟨Nat.zero_le _, by show d.val < 0 + 384; omega⟩
    | ⟨1, _⟩ => exact ⟨hq, by show q.val < 3072 + 64; omega⟩
  · have hk : q.val / 256 < k0_t1_loop.trips := by rw [trips_eq]; omega
    refine ⟨piece1 arg1 harg1 arg3 harg3 x0 x2 ⟨q.val / 256, hk⟩, List.mem_cons_of_mem _ ?_, ?_⟩
    · exact mem_pb c i arg1 harg1 arg2 harg2 arg3 harg3 arg4 harg4 arg5 harg5 x0 x2 _ (Nat.le_refl _) ⟨q.val / 256, hk⟩ hk
    · rw [Rect.mem_set_unit]
      intro a
      match a with
      | ⟨0, _⟩ =>
        show k0_off2 ⟨q.val / 256, hk⟩ 0 ≤ d.val ∧ d.val < k0_off2 ⟨q.val / 256, hk⟩ 0 + 384
        rw [k0_off2_eq]; show 0 ≤ d.val ∧ d.val < 0 + 384; omega
      | ⟨1, _⟩ =>
        show k0_off2 ⟨q.val / 256, hk⟩ 1 ≤ q.val ∧ q.val < k0_off2 ⟨q.val / 256, hk⟩ 1 + 256
        rw [k0_off2_eq]; show 256 * (q.val / 256) ≤ q.val ∧ q.val < 256 * (q.val / 256) + 256; omega

/-- The last piece is the block of the value matrix at columns 3072 to 3135. -/
theorem last_G (x : S384x64.Idx) :
    k0_pay5 (F := Ideal) (w2L arg3 harg3 x2) (xTailL arg1 harg1 x0) x
      = G x0 x2 ((Rect.unit (s := S384x3136) ![0, 3072] S384x64.size inb_S384x3136_S384x64_0_3072).emb x) := by
  obtain ⟨d, j, rfl⟩ : ∃ (d : Fin 384) (j : Fin 64), x = ix2 d j := ⟨x 0, x 1, eq_ix2 x⟩
  refine (Pay.pay5_apply _ _ (matOf x0) (wtOfB x2)
    (fun d ch => by rw [w2L_eq]; rfl) (fun ch j => xTailL_apply arg1 harg1 x0 ch j) d j).trans ?_
  have e0 : (Rect.unit (s := S384x3136) ![0, 3072] S384x64.size inb_S384x3136_S384x64_0_3072).emb (ix2 d j) 0 = d :=
    Fin.ext (by show 0 + 1 * d.val = d.val; omega)
  have e1 : (Rect.unit (s := S384x3136) ![0, 3072] S384x64.size inb_S384x3136_S384x64_0_3072).emb (ix2 d j) 1 = (⟨3072 + j.val, by omega⟩ : Fin 3136) :=
    Fin.ext (by show 3072 + 1 * j.val = 3072 + j.val; omega)
  exact (congrArg₂ (Cert.Attn.valT (matOf x0) (wtOfB x2)) e0 e1).symm

/-- The scratch pieces cover the scratch, and read back as the value matrix. -/
theorem scratch_eq (d : Fin 384) (p : Fin 3136) :
    (View.canon (L5 c i arg1 harg1 arg2 harg2 arg3 harg3 arg4 harg4 arg5 harg5 x0 x2) : S384x3136.Idx → EReal) (ix2 d p) = Cert.Attn.valT (matOf x0) (wtOfB x2) d p := by
  refine View.canon_apply_of_pieces (G x0 x2) _ ?_ (ix2 d p) (cover c i arg1 harg1 arg2 harg2 arg3 harg3 arg4 harg4 arg5 harg5 x0 x2 d p)
  unfold L5
  intro q hq x
  rcases List.mem_cons.mp hq with h | h
  · subst h
    exact last_G arg1 harg1 arg3 harg3 x0 x2 x
  · exact pb_G c i arg1 harg1 arg2 harg2 arg3 harg3 arg4 harg4 arg5 harg5 x0 x2 _ (Nat.le_refl _) q h x

end Cert.KernelIdeal.KScratch

end
-- ==== Proof.KOut.lean ====
/-
  The output block after the second loop and the store of the last chunk holds the attention of the block.

  The thirteen pieces — twelve chunks of 256 positions and one of 64 — tile the 1 by 384 by 3136 output block, and the
  piece that starts at position `o` holds, at `(0, d, j)`, entry `(d, o + j)` of the attention `Attn.outKv` of the input
  block, the first weight and the value matrix the scratch holds; that value matrix is `Attn.valT` (the scratch
  lemma), so every piece is the corresponding block of `Attn.outK`, and written over anything the pieces read back as
  `blockOut`.
-/
import proofs.«426938_j13941463843545_3_alg».proof.Proof.KPieces
import proofs.«426938_j13941463843545_3_alg».proof.Proof.KScratch
import Idealize.ShloMosaic.Lib.Pipeline.Value
import Idealize.ShloMosaic.Lib.Pipeline.FrameBody
import Idealize.ShloMosaic.Lib.Tactic

set_option maxRecDepth 16384

noncomputable section

namespace Cert.KernelIdeal.KOut

open Cert.KernelIdeal Cert.KernelIdeal.Gen Cert.KernelIdeal.KSpec Cert.KernelIdeal.KPieces
open Idealize.ShloMosaic Idealize.ShloMosaic.TcCoe Idealize.ShloMosaic.ValueIdx
open Idealize.SL.Sem

variable (c : Dev nD) (i : grid0.Coords) (arg1 : Memref sig .tc .vmem S1x384x3136 .bf16) (harg1 : arg1.IsWhole) (arg2 : Memref sig .tc .vmem S384x384 .bf16) (harg2 : arg2.IsWhole) (arg3 : Memref sig .tc .vmem S384x384 .bf16) (harg3 : arg3.IsWhole) (arg4 : Memref sig .tc .vmem S1x384x3136 .f32) (harg4 : arg4.IsWhole) (arg5 : Memref sig .tc .vmem S384x3136 .bf16) (harg5 : arg5.IsWhole)
variable (x0 : Vec Ideal S1x384x3136 .bf16) (x1 x2 : Vec Ideal S384x384 .bf16)

/-! ## What the body's loads read -/

theorem zero3 : (![0, 0, 0] : Fin 3 → ℕ) = fun _ => 0 := funext fun a => by fin_cases a <;> rfl
theorem zero2 : (![0, 0] : Fin 2 → ℕ) = fun _ => 0 := funext fun a => by fin_cases a <;> rfl

/-- The whole input block, loaded, is the block. -/
theorem xL_eq : xL arg1 harg1 x0 = x0 := by
  unfold xL
  simp only [View.readAt_eq_ld, harg1.read_unread, View.ld_unit_zero (S := S1x384x3136) zero3]

/-- The first weight, loaded, is the weight. -/
theorem w1L_eq : w1L arg2 harg2 x1 = x1 := by
  unfold w1L
  simp only [View.readAt_eq_ld, harg2.read_unread, View.ld_unit_zero (S := S384x384) zero2]

/-- The scratch, loaded whole when the second loop starts, is the value matrix. -/
theorem vL_apply (d : Fin 384) (p : Fin 3136) :
    vL c i arg1 harg1 arg2 harg2 arg3 harg3 arg4 harg4 arg5 harg5 x0 x2 (ix2 d p) = Cert.Attn.valT (matOf x0) (wtOfB x2) d p := by
  have e : vL c i arg1 harg1 arg2 harg2 arg3 harg3 arg4 harg4 arg5 harg5 x0 x2 = View.canon (L5 c i arg1 harg1 arg2 harg2 arg3 harg3 arg4 harg4 arg5 harg5 x0 x2) := by
    unfold vL X5c
    simp only [View.readAt_eq_ld, harg5.read_unread, View.ld_unit_zero (S := S384x3136) zero2]
  rw [e]
  exact KScratch.scratch_eq c i arg1 harg1 arg2 harg2 arg3 harg3 arg4 harg4 arg5 harg5 x0 x2 d p

/-- The last 64 columns of the input block, loaded: entry `(0, a, j)` is the block at column `3072 + j`. -/
theorem xTailL_apply (a : Fin 384) (j : Fin 64) :
    xTailL arg1 harg1 x0 (ix3 (0 : Fin 1) a j) = x0 (ix3 (0 : Fin 1) a ⟨3072 + j.val, by omega⟩) := by
  refine Eq.trans (congrFun (harg1.read_unread x0) _) (congrArg x0 (funext fun b => Fin.ext ?_))
  match b with
  | ⟨0, _⟩ => rfl
  | ⟨1, _⟩ => show 0 + 1 * a.val = a.val; omega
  | ⟨2, _⟩ => show 3072 + 1 * j.val = 3072 + j.val; omega

/-- A chunk of 256 columns of the input block, loaded in trip `k`: entry `(0, a, j)` is the block at column `256 k + j`. -/
theorem chunk_apply (k : Fin k0_t2_loop.trips) (a : Fin 384) (j : Fin 256) (h : 256 * k.val + j.val < 3136) :
    View.readAt (Elt Ideal) arg1.view (Rect.unit (s := S1x384x3136) (k0_off3 k) S1x384x256.size (k0_off3_inb k)).toLoadRect
        (harg1.unread x0) (ix3 (0 : Fin 1) a j)
      = x0 (ix3 (0 : Fin 1) a ⟨256 * k.val + j.val, h⟩) := by
  refine Eq.trans (congrFun (harg1.read_unread x0) _) (congrArg x0 (funext fun b => Fin.ext ?_))
  have e := k0_off3_eq k
  match b with
  | ⟨0, _⟩ => show k0_off3 k 0 + 1 * 0 = 0; rw [e]; rfl
  | ⟨1, _⟩ => show k0_off3 k 1 + 1 * a.val = a.val; rw [e]; show 0 + 1 * a.val = a.val; omega
  | ⟨2, _⟩ => show k0_off3 k 2 + 1 * j.val = 256 * k.val + j.val; rw [e]; show 256 * k.val + 1 * j.val = 256 * k.val + j.val; omega

/-! ## The pieces -/

/-- Trip `k` of the second loop writes one piece: at the trip's offsets, the chunk's payload over the loads. -/
theorem tripL_t2_eq (v0 : Vec Ideal S384x384 .bf16) (X1 : BufTy.Contents (Elt Ideal) arg1.view.ty)
    (X5 : BufTy.Contents (Elt Ideal) arg5.view.ty) (k : Fin k0_t2_loop.trips) :
    tripL_k0_t2 (F := Ideal) Variants.none c none i arg1 harg1 arg2 harg2 arg3 harg3 arg4 harg4 arg5 harg5 v0 X1 X5 k
      = [⟨Rect.unit (s := S1x384x3136) (k0_off3 k) S1x384x256.size (k0_off3_inb k),
          k0_pay6 (F := Ideal) v0
            (View.readAt (Elt Ideal) arg1.view (Rect.unit (s := S1x384x3136) (k0_off3 k) S1x384x256.size (k0_off3_inb k)).toLoadRect X1)
            (View.readAt (Elt Ideal) arg1.view (Rect.unit (s := S1x384x3136) ![0, 0, 0] S1x384x3136.size inb_S1x384x3136_S1x384x3136_0_0_0).toLoadRect X1)
            (View.readAt (Elt Ideal) arg5.view (Rect.unit (s := S384x3136) ![0, 0] S384x3136.size inb_S384x3136_S384x3136_0_0).toLoadRect X5)⟩] := by
  unfold tripL_k0_t2 trip_k0_t2
  rfl

/-- The piece of trip `k` is the block of the attention at positions `256 k` to `256 k + 255`. -/
theorem piece_t2 (k : Fin k0_t2_loop.trips)
    (x : (Rect.unit (s := S1x384x3136) (k0_off3 k) S1x384x256.size (k0_off3_inb k)).shape.Idx) :
    k0_pay6 (F := Ideal) (w1L arg2 harg2 x1) (View.readAt (Elt Ideal) arg1.view (Rect.unit (s := S1x384x3136) (k0_off3 k) S1x384x256.size (k0_off3_inb k)).toLoadRect (harg1.unread x0)) (xL arg1 harg1 x0) (vL c i arg1 harg1 arg2 harg2 arg3 harg3 arg4 harg4 arg5 harg5 x0 x2) x
      = blockOut x0 x1 x2 ((Rect.unit (s := S1x384x3136) (k0_off3 k) S1x384x256.size (k0_off3_inb k)).emb x) := by
  have hk : k.val < 12 := Nat.lt_of_lt_of_le k.isLt k0_t2_abs.2.1
  obtain ⟨u, d, j, rfl⟩ : ∃ (u : Fin 1) (d : Fin 384) (j : Fin 256), x = ix3 u d j := ⟨x 0, x 1, x 2, eq_ix3 x⟩
  obtain rfl : u = 0 := Fin.eq_zero u
  have e := k0_off3_eq k
  have e1 : (Rect.unit (s := S1x384x3136) (k0_off3 k) S1x384x256.size (k0_off3_inb k)).emb (ix3 (0 : Fin 1) d j) 1 = d :=
    Fin.ext (by show k0_off3 k 1 + 1 * d.val = d.val; rw [e]; show 0 + 1 * d.val = d.val; omega)
  have e2 : (Rect.unit (s := S1x384x3136) (k0_off3 k) S1x384x256.size (k0_off3_inb k)).emb (ix3 (0 : Fin 1) d j) 2
      = (⟨256 * k.val + j.val, by omega⟩ : Fin 3136) :=
    Fin.ext (by show k0_off3 k 2 + 1 * j.val = 256 * k.val + j.val; rw [e]; show 256 * k.val + 1 * j.val = 256 * k.val + j.val; omega)
  refine (Pay.pay6_apply (w1L arg2 harg2 x1) (View.readAt (Elt Ideal) arg1.view (Rect.unit (s := S1x384x3136) (k0_off3 k) S1x384x256.size (k0_off3_inb k)).toLoadRect (harg1.unread x0)) (xL arg1 harg1 x0) (vL c i arg1 harg1 arg2 harg2 arg3 harg3 arg4 harg4 arg5 harg5 x0 x2)
    (matOf x0) (wtOfB x1) (Cert.Attn.valT (matOf x0) (wtOfB x2)) (256 * k.val) (by omega)
    (fun a m => by rw [xL_eq]; rfl) (fun a b => by rw [w1L_eq]; rfl) (fun a m => vL_apply c i arg1 harg1 arg2 harg2 arg3 harg3 arg4 harg4 arg5 harg5 x0 x2 a m)
    (fun a j' => chunk_apply arg1 harg1 x0 k a j' (by omega)) d j).trans ?_
  exact (congrArg₂ (fun (a : Fin 384) (b : Fin 3136) => Cert.Attn.outK (matOf x0) (wtOfB x1) (wtOfB x2) a b) e1 e2).symm

/-- The last piece is the block of the attention at positions 3072 to 3135. -/
theorem piece_last
    (x : (Rect.unit (s := S1x384x3136) ![0, 0, 3072] S1x384x64.size inb_S1x384x3136_S1x384x64_0_0_3072).shape.Idx) :
    k0_pay1 (F := Ideal) (k0_pay7 (F := Ideal) (w1L arg2 harg2 x1) (xTailL arg1 harg1 x0) (xL arg1 harg1 x0)) (vL c i arg1 harg1 arg2 harg2 arg3 harg3 arg4 harg4 arg5 harg5 x0 x2) x
      = blockOut x0 x1 x2 ((Rect.unit (s := S1x384x3136) ![0, 0, 3072] S1x384x64.size inb_S1x384x3136_S1x384x64_0_0_3072).emb x) := by
  obtain ⟨u, d, j, rfl⟩ : ∃ (u : Fin 1) (d : Fin 384) (j : Fin 64), x = ix3 u d j := ⟨x 0, x 1, x 2, eq_ix3 x⟩
  obtain rfl : u = 0 := Fin.eq_zero u
  have e1 : (Rect.unit (s := S1x384x3136) ![0, 0, 3072] S1x384x64.size inb_S1x384x3136_S1x384x64_0_0_3072).emb (ix3 (0 : Fin 1) d j) 1 = d :=
    Fin.ext (by show 0 + 1 * d.val = d.val; omega)
  have e2 : (Rect.unit (s := S1x384x3136) ![0, 0, 3072] S1x384x64.size inb_S1x384x3136_S1x384x64_0_0_3072).emb (ix3 (0 : Fin 1) d j) 2
      = (⟨3072 + j.val, by omega⟩ : Fin 3136) :=
    Fin.ext (by show 3072 + 1 * j.val = 3072 + j.val; omega)
  refine (Pay.pay1_apply (w1L arg2 harg2 x1) (xTailL arg1 harg1 x0) (xL arg1 harg1 x0) (vL c i arg1 harg1 arg2 harg2 arg3 harg3 arg4 harg4 arg5 harg5 x0 x2)
    (matOf x0) (wtOfB x1) (Cert.Attn.valT (matOf x0) (wtOfB x2))
    (fun a m => by rw [xL_eq]; rfl) (fun a b => by rw [w1L_eq]; rfl) (fun a m => vL_apply c i arg1 harg1 arg2 harg2 arg3 harg3 arg4 harg4 arg5 harg5 x0 x2 a m)
    (fun a j' => xTailL_apply arg1 harg1 x0 a j') d j).trans ?_
  exact (congrArg₂ (fun (a : Fin 384) (b : Fin 3136) => Cert.Attn.outK (matOf x0) (wtOfB x1) (wtOfB x2) a b) e1 e2).symm

/-- Every piece of the trips before `n` is a block of the attention. -/
theorem pieces_pb (n : ℕ) (hn : n ≤ k0_t2_loop.trips) :
    ∀ p ∈ pb_k0_t2 (F := Ideal) Variants.none c none i arg1 harg1 arg2 harg2 arg3 harg3 arg4 harg4 arg5 harg5 (w1L arg2 harg2 x1) (harg1.unread x0) (X5c c i arg1 harg1 arg2 harg2 arg3 harg3 arg4 harg4 arg5 harg5 x0 x2) n,
      ∀ x : p.1.shape.Idx, p.2 x = blockOut x0 x1 x2 (p.1.emb x) := by
  induction n with
  | zero =>
    intro p hp
    rw [pb_k0_t2.eq_1] at hp
    exact absurd hp List.not_mem_nil
  | succ n ih =>
    intro p hp
    have hs := pb_k0_t2_succ (F := Ideal) Variants.none c none i arg1 harg1 arg2 harg2 arg3 harg3 arg4 harg4 arg5 harg5
      (w1L arg2 harg2 x1) (harg1.unread x0) (X5c c i arg1 harg1 arg2 harg2 arg3 harg3 arg4 harg4 arg5 harg5 x0 x2) ⟨n, hn⟩
    rw [tripL_t2_eq] at hs
    rw [show n + 1 = (⟨n, hn⟩ : Fin k0_t2_loop.trips).val + 1 from rfl, hs] at hp
    rcases List.mem_cons.mp hp with rfl | hp
    · exact piece_t2 c i arg1 harg1 arg2 harg2 arg3 harg3 arg4 harg4 arg5 harg5 x0 x1 x2 ⟨n, hn⟩
    · exact ih (Nat.le_of_succ_le hn) p hp

/-- Every position below `256 n` lies in a piece of the trips before `n`. -/
theorem cover_pb (n : ℕ) (hn : n ≤ k0_t2_loop.trips) (y : S1x384x3136.Idx) (hy : (y 2).val < 256 * n) :
    ∃ p ∈ pb_k0_t2 (F := Ideal) Variants.none c none i arg1 harg1 arg2 harg2 arg3 harg3 arg4 harg4 arg5 harg5 (w1L arg2 harg2 x1) (harg1.unread x0) (X5c c i arg1 harg1 arg2 harg2 arg3 harg3 arg4 harg4 arg5 harg5 x0 x2) n, y ∈ p.1.set := by
  induction n with
  | zero => exact absurd hy (by omega)
  | succ n ih =>
    have hs := pb_k0_t2_succ (F := Ideal) Variants.none c none i arg1 harg1 arg2 harg2 arg3 harg3 arg4 harg4 arg5 harg5
      (w1L arg2 harg2 x1) (harg1.unread x0) (X5c c i arg1 harg1 arg2 harg2 arg3 harg3 arg4 harg4 arg5 harg5 x0 x2) ⟨n, hn⟩
    rw [tripL_t2_eq] at hs
    rw [show n + 1 = (⟨n, hn⟩ : Fin k0_t2_loop.trips).val + 1 from rfl, hs]
    by_cases h : (y 2).val < 256 * n
    · obtain ⟨p, hp, hyp⟩ := ih (Nat.le_of_succ_le hn) h
      exact ⟨p, List.mem_cons_of_mem _ hp, hyp⟩
    · refine ⟨_, List.mem_cons_self, ?_⟩
      show y ∈ (Rect.unit (s := S1x384x3136) (k0_off3 ⟨n, hn⟩) S1x384x256.size (k0_off3_inb ⟨n, hn⟩)).set
      rw [Rect.mem_set_unit]
      intro a
      have e := k0_off3_eq ⟨n, hn⟩
      have h0 : (y 0).val < 1 := (y 0).isLt
      have h1 : (y 1).val < 384 := (y 1).isLt
      rw [e]
      match a with
      | ⟨0, _⟩ => show 0 ≤ (y 0).val ∧ (y 0).val < 0 + 1; omega
      | ⟨1, _⟩ => show 0 ≤ (y 1).val ∧ (y 1).val < 0 + 384; omega
      | ⟨2, _⟩ => show 256 * n ≤ (y 2).val ∧ (y 2).val < 256 * n + 256; omega

/-- The output pieces written over anything read back as the attention of the block. -/
theorem out_eq (v : View sig .tc .vmem S1x384x3136 .f32) (f : v.ty.Contents (Elt Ideal)) :
    v.read (Elt Ideal) (v.writes (Elt Ideal) f (L3 c i arg1 harg1 arg2 harg2 arg3 harg3 arg4 harg4 arg5 harg5 x0 x1 x2)) = blockOut x0 x1 x2 := by
  have ht : k0_t2_loop.trips = 12 := by decide
  funext y
  refine View.read_writes_apply_of_pieces v f (blockOut x0 x1 x2) (L3 c i arg1 harg1 arg2 harg2 arg3 harg3 arg4 harg4 arg5 harg5 x0 x1 x2) ?_ y ?_
  · intro p hp
    unfold L3 at hp
    rcases List.mem_cons.mp hp with rfl | hp
    · exact piece_last c i arg1 harg1 arg2 harg2 arg3 harg3 arg4 harg4 arg5 harg5 x0 x1 x2
    · exact pieces_pb c i arg1 harg1 arg2 harg2 arg3 harg3 arg4 harg4 arg5 harg5 x0 x1 x2 _ (Nat.le_refl _) p hp
  · unfold L3
    by_cases h : (y 2).val < 3072
    · obtain ⟨p, hp, hyp⟩ := cover_pb c i arg1 harg1 arg2 harg2 arg3 harg3 arg4 harg4 arg5 harg5 x0 x1 x2 k0_t2_loop.trips (Nat.le_refl _) y (by rw [ht]; omega)
      exact ⟨p, List.mem_cons_of_mem _ hp, hyp⟩
    · refine ⟨_, List.mem_cons_self, ?_⟩
      show y ∈ (Rect.unit (s := S1x384x3136) ![0, 0, 3072] S1x384x64.size inb_S1x384x3136_S1x384x64_0_0_3072).set
      rw [Rect.mem_set_unit]
      intro a
      have h0 : (y 0).val < 1 := (y 0).isLt
      have h1 : (y 1).val < 384 := (y 1).isLt
      have h2 : (y 2).val < 3136 := (y 2).isLt
      match a with
      | ⟨0, _⟩ => show 0 ≤ (y 0).val ∧ (y 0).val < 0 + 1; omega
      | ⟨1, _⟩ => show 0 ≤ (y 1).val ∧ (y 1).val < 0 + 384; omega
      | ⟨2, _⟩ => show 3072 ≤ (y 2).val ∧ (y 2).val < 3072 + 64; omega

end Cert.KernelIdeal.KOut

end
-- ==== Proof.KRun.lean ====
/-
  The kernel body's run, read as values: the pieces the run finds for the output block are the list spelt out in
  `KPieces.L3`, so what one grid point leaves in the output block is `blockOut` of its three input blocks, and the
  pipeline's proof data has that block after every point.
-/
import proofs.«426938_j13941463843545_3_alg».proof.Proof.KernelIdealFrame
import proofs.«426938_j13941463843545_3_alg».proof.Proof.KOut

set_option maxRecDepth 16384

noncomputable section

namespace Cert.KernelIdeal.KRun

open Cert.KernelIdeal Cert.KernelIdeal.Gen Cert.KernelIdeal.GenP Cert.KernelIdeal.KSpec
open Idealize.ShloMosaic Idealize.ShloMosaic.TcCoe Idealize.ShloMosaic.Tactic Idealize.ShloMosaic.ValueIdx
open Idealize.SL.Sem
open Idealize.ShloMosaic.Pipeline (Dat)

/-- The output pieces the run finds are the spelt-out list. -/
theorem run_pieces (c : Dev nD) (i : grid0.Coords) (arg1 : Memref sig .tc .vmem S1x384x3136 .bf16) (harg1 : arg1.IsWhole) (arg2 : Memref sig .tc .vmem S384x384 .bf16) (harg2 : arg2.IsWhole) (arg3 : Memref sig .tc .vmem S384x384 .bf16) (harg3 : arg3.IsWhole) (arg4 : Memref sig .tc .vmem S1x384x3136 .f32) (harg4 : arg4.IsWhole) (arg5 : Memref sig .tc .vmem S384x3136 .bf16) (harg5 : arg5.IsWhole)
    (x0 : Vec Ideal S1x384x3136 .bf16) (x1 x2 : Vec Ideal S384x384 .bf16) :
    (kernelRun0_A (F := Ideal) c i arg1 harg1 arg2 harg2 arg3 harg3 arg4 harg4 arg5 harg5 x0 x1 x2).1 = KPieces.L3 c i arg1 harg1 arg2 harg2 arg3 harg3 arg4 harg4 arg5 harg5 x0 x1 x2 := by
  unfold kernelRun0_A
  dsimp only
  sl_unfold_words
  rfl

/-- What one grid point leaves in the output block. -/
theorem out_block (c : Dev nD) (i : grid0.Coords) (arg1 : Memref sig .tc .vmem S1x384x3136 .bf16) (harg1 : arg1.IsWhole) (arg2 : Memref sig .tc .vmem S384x384 .bf16) (harg2 : arg2.IsWhole) (arg3 : Memref sig .tc .vmem S384x384 .bf16) (harg3 : arg3.IsWhole) (arg4 : Memref sig .tc .vmem S1x384x3136 .f32) (harg4 : arg4.IsWhole) (arg5 : Memref sig .tc .vmem S384x3136 .bf16) (harg5 : arg5.IsWhole)
    (x0 : Vec Ideal S1x384x3136 .bf16) (x1 x2 : Vec Ideal S384x384 .bf16) :
    out0_A_3 (F := Ideal) c i arg1 harg1 arg2 harg2 arg3 harg3 arg4 harg4 arg5 harg5 x0 x1 x2 = blockOut x0 x1 x2 := by
  unfold out0_A_3
  rw [run_pieces]
  exact KOut.out_eq c i arg1 harg1 arg2 harg2 arg3 harg3 arg4 harg4 arg5 harg5 x0 x1 x2 VO0_3 _

variable (m : (ℓ : Loc nD τ sig) → Buf (Elt Ideal) ℓ)

/-- The proof data's output block after point `t` is `blockOut` of the input blocks at `t`. -/
theorem after3 (c : Dev nD) (t : Fin cfg0.N) :
    (dats m 0 c).after 3 t = blockOut (iblk m c 0 t) (iblk m c 1 t) (iblk m c 2 t) := by
  rw [after0_3]
  unfold outsAt0
  exact out_block c _ _ _ _ _ _ _ _ _ _ _ _ _ _

end Cert.KernelIdeal.KRun

end
-- ==== Proof.KHost.lean ====
/-
  The host lines around the kernel's region, read over the extended reals.

  Before the region the program narrows the three inputs to a shorter float format, which changes no value over the
  extended reals, and reshapes the input to 8 batches by 384 channels by 3136 positions; so the region finds the
  reshaped input and the two weights as launched. The block of the input the pipeline hands the body at grid point
  `t` is batch `t`; the weights' one block is the whole weight. After the region the one host line reshapes the
  result array back to four axes.
-/
import proofs.«426938_j13941463843545_3_alg».proof.Proof.Gen.KernelIdeal.Frame.Runs
import proofs.«426938_j13941463843545_3_alg».proof.Proof.Spec3
import Idealize.ShloMosaic.Lib.Pipeline.Value
import Idealize.ShloMosaic.Lib.StableHlo.Run
import Idealize.ShloMosaic.Lib.ValueIdx
import Idealize.ShloMosaic.Lib.Tactic

noncomputable section

namespace Cert.KernelIdeal.KHost

open Cert.KernelIdeal Cert.KernelIdeal.Gen
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ)

/-- The region finds the input reshaped to three axes. -/
theorem V_main_v1 (c : Dev nD) :
    (V m c main_v1 : S8x384x3136.Idx → EReal)
      = shapeCast S8x384x3136 (m ((c : Thread nD τ).loc main_arg0)) shapeCasts_S8x384x56x56_S8x384x3136 := by
  show StableHlo.after hostOps0 (fun b => m (c, b)) (Proc.devRef .tc main_v1) = _
  after_results
  rfl

/-- The region finds the first weight as launched. -/
theorem V_main_v2 (c : Dev nD) :
    (V m c main_v2 : S384x384.Idx → EReal) = m ((c : Thread nD τ).loc main_arg1) := by
  show StableHlo.after hostOps0 (fun b => m (c, b)) (Proc.devRef .tc main_v2) = _
  after_results
  rfl

/-- The region finds the second weight as launched. -/
theorem V_main_v3 (c : Dev nD) :
    (V m c main_v3 : S384x384.Idx → EReal) = m ((c : Thread nD τ).loc main_arg2) := by
  show StableHlo.after hostOps0 (fun b => m (c, b)) (Proc.devRef .tc main_v3) = _
  after_results
  rfl

/-- The grid has eight points. -/
theorem N_eq : cfg0.N = 8 := by
  exact N_0

/-- The input's block at grid point `t` is batch `t` of the reshaped input. -/
theorem iblk0_apply (c : Dev nD) (t : Fin cfg0.N) (ch : Fin 384) (p : Fin 3136) :
    (iblk m c 0 t : S1x384x3136.Idx → EReal) (ix3 (0 : Fin 1) ch p)
      = (V m c main_v1 : S8x384x3136.Idx → EReal) (ix3 (⟨t.val, lt_of_lt_of_eq t.isLt N_eq⟩ : Fin 8) ch p) := by
  have hi : win0_0.index t 0 = t.val ∧ win0_0.index t 1 = 0 ∧ win0_0.index t 2 = 0 := by
    rcases fin_N0 t with rfl | rfl | rfl | rfl | rfl | rfl | rfl | rfl <;> decide
  unfold iblk
  rw [View.read_apply]
  show (V m c main_v1 : S8x384x3136.Idx → EReal) _ = _
  refine congrArg (V m c main_v1 : S8x384x3136.Idx → EReal) (funext fun a => Fin.ext ?_)
  match a with
  | ⟨0, _⟩ => show win0_0.index t 0 * 1 + 1 * 0 = t.val; rw [hi.1]; omega
  | ⟨1, _⟩ => show win0_0.index t 1 * 384 + 1 * ch.val = ch.val; rw [hi.2.1]; omega
  | ⟨2, _⟩ => show win0_0.index t 2 * 3136 + 1 * p.val = p.val; rw [hi.2.2]; omega

/-- The first weight's block at every grid point is the whole weight. -/
theorem iblk1_apply (c : Dev nD) (t : Fin cfg0.N) (d ch : Fin 384) :
    (iblk m c 1 t : S384x384.Idx → EReal) (ix2 d ch) = (V m c main_v2 : S384x384.Idx → EReal) (ix2 d ch) := by
  have hi : win0_1.index t 0 = 0 ∧ win0_1.index t 1 = 0 := by
    rcases fin_N0 t with rfl | rfl | rfl | rfl | rfl | rfl | rfl | rfl <;> decide
  unfold iblk
  rw [View.read_apply]
  show (V m c main_v2 : S384x384.Idx → EReal) _ = _
  refine congrArg (V m c main_v2 : S384x384.Idx → EReal) (funext fun a => Fin.ext ?_)
  match a with
  | ⟨0, _⟩ => show win0_1.index t 0 * 384 + 1 * d.val = d.val; rw [hi.1]; omega
  | ⟨1, _⟩ => show win0_1.index t 1 * 384 + 1 * ch.val = ch.val; rw [hi.2]; omega

/-- The second weight's block at every grid point is the whole weight. -/
theorem iblk2_apply (c : Dev nD) (t : Fin cfg0.N) (d ch : Fin 384) :
    (iblk m c 2 t : S384x384.Idx → EReal) (ix2 d ch) = (V m c main_v3 : S384x384.Idx → EReal) (ix2 d ch) := by
  have hi : win0_2.index t 0 = 0 ∧ win0_2.index t 1 = 0 := by
    rcases fin_N0 t with rfl | rfl | rfl | rfl | rfl | rfl | rfl | rfl <;> decide
  unfold iblk
  rw [View.read_apply]
  show (V m c main_v3 : S384x384.Idx → EReal) _ = _
  refine congrArg (V m c main_v3 : S384x384.Idx → EReal) (funext fun a => Fin.ext ?_)
  match a with
  | ⟨0, _⟩ => show win0_2.index t 0 * 384 + 1 * d.val = d.val; rw [hi.1]; omega
  | ⟨1, _⟩ => show win0_2.index t 1 * 384 + 1 * ch.val = ch.val; rw [hi.2]; omega

/-- After the region the program's result is the result array reshaped to four axes, for any proof data of the
    pipeline. -/
theorem tail_main_v5 (dats : (p : Fin 1) → (c : Dev nD) → Dat τ (Elt Ideal) Unit ℕ (UR sig nD τ) ℕ (cfgs p) c) (c : Dev nD) :
    (Pipeline.afterTail₀ cfgs dats 0 (V0 m) [hostOps1] c main_v5 : S8x384x56x56.Idx → EReal)
      = shapeCast S8x384x56x56 ((dats 0 c).arrAt 3 cfg0.N : S8x384x3136.Idx → EReal) shapeCasts_S8x384x3136_S8x384x56x56 := by
  unfold Pipeline.afterTail₀
  show StableHlo.after hostOps1 _ (Proc.devRef .tc main_v5) = _
  after_results
  exact congrArg (fun x : S8x384x3136.Idx → EReal => shapeCast S8x384x56x56 x shapeCasts_S8x384x3136_S8x384x56x56)
    (Pipeline.withArrays_arr spec0 launch0.win.arr_inj c (V0 m c) (fun w => (dats 0 c).arrAt w cfg0.N) 3)

end Cert.KernelIdeal.KHost

end
-- ==== Proof.KArray.lean ====
/-
  From the blocks to the result array. The grid has eight points; point `t` writes back the output block of batch `t`,
  and the eight blocks tile the result array of 8 batches by 384 channels by 3136 positions. If every point leaves in
  its block the attention of the batch it was handed, the result array holds, at `(b, d, n)`, entry `(d, n)` of the
  attention of batch `b`: `Attn.out3K` of the arrays the region found.
-/
import proofs.«426938_j13941463843545_3_alg».proof.Proof.KSpec
import proofs.«426938_j13941463843545_3_alg».proof.Proof.KHost

noncomputable section

namespace Cert.KernelIdeal.KArray

open Cert.KernelIdeal Cert.KernelIdeal.Gen Cert.KernelIdeal.KSpec
open Idealize.ShloMosaic Idealize.ShloMosaic.TcCoe Idealize.SL.Sem Idealize.ShloMosaic.ValueIdx
open Idealize.ShloMosaic.Pipeline (Dat)

/-- If an input block is batch `b` of a batched array and the two weight blocks are the weight arrays, the attention of
    the blocks is the attention of batch `b` of the arrays. -/
theorem outK_block (A : Vec Ideal S1x384x3136 .bf16) (B C : Vec Ideal S384x384 .bf16)
    (X3 : S8x384x3136.Idx → EReal) (W1 W2 : S384x384.Idx → EReal) (b : Fin 8)
    (hA : ∀ (ch : Fin 384) (p : Fin 3136), A (ix3 (0 : Fin 1) ch p) = X3 (ix3 b ch p))
    (hB : ∀ d ch : Fin 384, B (ix2 d ch) = W1 (ix2 d ch)) (hC : ∀ d ch : Fin 384, C (ix2 d ch) = W2 (ix2 d ch)) :
    Cert.Attn.outK (matOf A) (wtOfB B) (wtOfB C)
      = Cert.Attn.outK (Cert.Attn.batchOf X3 b) (Cert.Attn.wtOf W1) (Cert.Attn.wtOf W2) := by
  have e0 : matOf A = Cert.Attn.batchOf X3 b := funext fun ch => funext fun p => hA ch p
  have e1 : wtOfB B = Cert.Attn.wtOf W1 := funext fun d => funext fun ch => hB d ch
  have e2 : wtOfB C = Cert.Attn.wtOf W2 := funext fun d => funext fun ch => hC d ch
  rw [e0, e1, e2]

/-- The batched attention at an index whose coordinates are `b`, `d`, `n`. -/
theorem out3K_at (X3 : S8x384x3136.Idx → EReal) (W1 W2 : S384x384.Idx → EReal) (i : S8x384x3136.Idx)
    (b : Fin 8) (d : Fin 384) (n : Fin 3136) (h0 : (i 0).val = b.val) (h1 : (i 1).val = d.val) (h2 : (i 2).val = n.val) :
    Cert.Attn.out3K X3 W1 W2 i = Cert.Attn.outK (Cert.Attn.batchOf X3 b) (Cert.Attn.wtOf W1) (Cert.Attn.wtOf W2) d n := by
  obtain ⟨b', d', n', rfl⟩ : ∃ (b' : Fin 8) (d' : Fin 384) (n' : Fin 3136), i = ix3 b' d' n' := ⟨i 0, i 1, i 2, eq_ix3 i⟩
  obtain rfl : b' = b := Fin.ext h0
  obtain rfl : d' = d := Fin.ext h1
  obtain rfl : n' = n := Fin.ext h2
  rfl

variable (m : (ℓ : Loc nD τ sig) → Buf (Elt Ideal) ℓ)

/-- The output's index map, decided over the grid: point `t` writes block `(t, 0, 0)`. -/
theorem idx_facts : ∀ t : Fin cfg0.N, win0_3.index t (0 : Fin 3) = t.val ∧ win0_3.index t (1 : Fin 3) = 0 ∧ win0_3.index t (2 : Fin 3) = 0 :=
  (by decide +kernel : ∀ t : Fin grid0.N, _)

/-- What point `t` writes back is block `t` of the batched attention of the arrays the region found. -/
theorem flushed_eq (c : Dev nD) (dat : Dat τ (Elt Ideal) Unit ℕ (UR sig nD τ) ℕ cfg0 c)
    (hafter : ∀ t : Fin cfg0.N, dat.after 3 t = blockOut (iblk m c 0 t) (iblk m c 1 t) (iblk m c 2 t)) (t : Fin cfg0.N) :
    dat.flushed 3 t = ((cfg0.win 3).blk t).view.read (Elt Ideal)
      (Cert.Attn.out3K (V m c main_v1) (V m c main_v2) (V m c main_v3)) := by
  show (cfg0.win 3).cut (grid0.coords t) (dat.after 3 t) = _
  rw [hafter]
  obtain ⟨e0, e1, e2⟩ := idx_facts t
  have hb : t.val < 8 := lt_of_lt_of_eq t.isLt KHost.N_eq
  funext y
  have hy0 : (y 0).val < 1 := (y 0).isLt
  have hy1 : (y 1).val < 384 := (y 1).isLt
  have hy2 : (y 2).val < 3136 := (y 2).isLt
  show Cert.Attn.outK (matOf (iblk m c 0 t)) (wtOfB (iblk m c 1 t)) (wtOfB (iblk m c 2 t))
        (⟨(y 1).val, hy1⟩ : Fin 384) (⟨(y 2).val, hy2⟩ : Fin 3136)
      = Cert.Attn.out3K (V m c main_v1) (V m c main_v2) (V m c main_v3) (((cfg0.win 3).blk t).view.emb y)
  refine (congrFun (congrFun (outK_block (iblk m c 0 t) (iblk m c 1 t) (iblk m c 2 t)
      (V m c main_v1) (V m c main_v2) (V m c main_v3) ⟨t.val, hb⟩
      (fun ch p => KHost.iblk0_apply m c t ch p) (fun d ch => KHost.iblk1_apply m c t d ch)
      (fun d ch => KHost.iblk2_apply m c t d ch)) _) _).trans
    (out3K_at _ _ _ (((cfg0.win 3).blk t).view.emb y) ⟨t.val, hb⟩ ⟨(y 1).val, hy1⟩ ⟨(y 2).val, hy2⟩ ?_ ?_ ?_).symm
  · show win0_3.index t (0 : Fin 3) * 1 + 1 * (y 0).val = t.val
    omega
  · show win0_3.index t (1 : Fin 3) * 384 + 1 * (y 1).val = (y 1).val
    omega
  · show win0_3.index t (2 : Fin 3) * 3136 + 1 * (y 2).val = (y 2).val
    omega

/-- An index of the array is in point `t`'s block iff each coordinate is in the block's range on its axis. -/
theorem mem_blk (t : Fin cfg0.N) (i : S8x384x3136.Idx) :
    i ∈ ((cfg0.win 3).blk t).view.set ↔ ∀ a : Fin 3, win0_3.index t a * S1x384x3136.size a ≤ (i a).val
      ∧ (i a).val < win0_3.index t a * S1x384x3136.size a + S1x384x3136.size a := by
  show i ∈ ((View.whole main_v4).slice (win0_3.rect t)).set ↔ _
  rw [View.set_slice_whole, Rect.mem_set_unit]
  exact Iff.rfl

/-- Every index of the array is in the block of the point its batch coordinate names. -/
theorem cover (i : S8x384x3136.Idx) :
    ∃ t : Fin cfg0.N, (cfg0.win 3).flush t = true ∧ i ∈ ((cfg0.win 3).blk t).view.set := by
  have hi0 : (i 0).val < 8 := (i 0).isLt
  have hi1 : (i 1).val < 384 := (i 1).isLt
  have hi2 : (i 2).val < 3136 := (i 2).isLt
  have ht : (i 0).val < cfg0.N := lt_of_lt_of_eq hi0 KHost.N_eq.symm
  obtain ⟨e0, e1, e2⟩ := idx_facts ⟨(i 0).val, ht⟩
  refine ⟨⟨(i 0).val, ht⟩, flush0_3 _, ?_⟩
  rw [mem_blk]
  intro a
  match a with
  | ⟨0, _⟩ =>
    show win0_3.index ⟨(i 0).val, ht⟩ (0 : Fin 3) * 1 ≤ (i 0).val ∧ (i 0).val < win0_3.index ⟨(i 0).val, ht⟩ (0 : Fin 3) * 1 + 1
    rw [e0]; show (i 0).val * 1 ≤ (i 0).val ∧ (i 0).val < (i 0).val * 1 + 1; omega
  | ⟨1, _⟩ =>
    show win0_3.index ⟨(i 0).val, ht⟩ (1 : Fin 3) * 384 ≤ (i 1).val ∧ (i 1).val < win0_3.index ⟨(i 0).val, ht⟩ (1 : Fin 3) * 384 + 384
    rw [e1]; omega
  | ⟨2, _⟩ =>
    show win0_3.index ⟨(i 0).val, ht⟩ (2 : Fin 3) * 3136 ≤ (i 2).val ∧ (i 2).val < win0_3.index ⟨(i 0).val, ht⟩ (2 : Fin 3) * 3136 + 3136
    rw [e2]; omega

/-- For any proof data of the pipeline whose output block after point `t` is `blockOut` of the input blocks at `t`,
    the result array after the last point is `Attn.out3K` of the three arrays the region found. -/
theorem arrAt_eq (c : Dev nD) (dat : Dat τ (Elt Ideal) Unit ℕ (UR sig nD τ) ℕ cfg0 c)
    (hafter : ∀ t : Fin cfg0.N, dat.after 3 t = blockOut (iblk m c 0 t) (iblk m c 1 t) (iblk m c 2 t)) :
    (dat.arrAt 3 cfg0.N : S8x384x3136.Idx → EReal)
      = Cert.Attn.out3K (V m c main_v1) (V m c main_v2) (V m c main_v3) :=
  dat.arrAt_eq_of_cover 3 (Cert.Attn.out3K (V m c main_v1) (V m c main_v2) (V m c main_v3))
    (fun t _ => flushed_eq m c dat hafter t) cover

end Cert.KernelIdeal.KArray

end
-- ==== Proof.KValue.lean ====
/-
  The idealized kernel's run with its result named: every weakly fair execution terminates, the program's result is
  the attention `Attn.out3K` of the reshaped input and the two weights, reshaped back to four axes, and the three
  arguments end as launched.

  The frame run leaves every buffer outside the pipeline as the host line after the region leaves it: the result is the
  reshape of the result array (`KHost.tail_main_v5`), the result array is `Attn.out3K` of the arrays the region found
  (`KArray.arrAt_eq`, every grid point leaving `blockOut`: `KRun.after3`), and the region found the reshaped input and
  the weights as launched (`KHost.V_main_v1` …).
-/
import proofs.«426938_j13941463843545_3_alg».proof.Proof.KRun
import proofs.«426938_j13941463843545_3_alg».proof.Proof.KArray
import proofs.«426938_j13941463843545_3_alg».proof.Proof.KHost

noncomputable section

namespace Cert.KernelIdeal.KValue

open Cert.KernelIdeal Cert.KernelIdeal.Gen Cert.KernelIdeal.GenP
open Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The kernel program's result as a function of its three arguments. -/
def result (a0 : S8x384x56x56.Idx → EReal) (a1 a2 : S384x384.Idx → EReal) : S8x384x56x56.Idx → EReal :=
  shapeCast S8x384x56x56 (Cert.Attn.out3K (shapeCast S8x384x3136 a0 shapeCasts_S8x384x56x56_S8x384x3136) a1 a2)
    shapeCasts_S8x384x3136_S8x384x56x56

/-- What the host line after the region leaves in the program's result. -/
theorem tail_value (c : Dev nD) :
    (Pipeline.afterTail₀ cfgs (dats m) 0 (V0 m) [hostOps1] c main_v5 : S8x384x56x56.Idx → EReal)
      = result (m ((c : Thread nD τ).loc main_arg0)) (m ((c : Thread nD τ).loc main_arg1)) (m ((c : Thread nD τ).loc main_arg2)) := by
  rw [KHost.tail_main_v5 m (dats m) c, KArray.arrAt_eq m c (dats m 0 c) (KRun.after3 m c), KHost.V_main_v1, KHost.V_main_v2,
    KHost.V_main_v3]
  rfl

/-- The run, read. -/
theorem run_value : θ_run defs (onTc (τ := τ) (main (F := Ideal))) ⟨m, fun _ => 0, ρ⟩ (fun r => ∀ c : Dev nD,
      r.2.mem ((c.tc : Thread nD τ).loc main_v5)
        = result (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v5 (Pipeline.mem_restRefs_of main_v5 (by decide) (by decide))).trans (tail_value m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.KValue

end
-- ==== Proof.Bridge.lean ====
/-
  The two arrangements of one batch of attention agree when every entry of the input and of the two weight
  matrices is a real number.

  With real entries every intermediate quantity is a real number: sums of products of reals, the row maximum of
  3136 reals (the fold from minus infinity over a non-empty row), the exponential of a real, and a row sum of
  positive reals, which is positive and so not zero. On real numbers the scale moves out of the inner product
  (`(∑ d, (q d * κ) * x d) = (∑ d, q d * x d) * κ`) and the division by the row sum moves out of the weighted sum
  (`∑ m, (e m / l) * v m = (∑ m, v m * e m) / l`).
-/
import proofs.«426938_j13941463843545_3_alg».proof.Proof.Spec

noncomputable section

namespace Cert.Attn

open Idealize.ShloMosaic
open scoped BigOperators

/-- Every entry is a real number. -/
def RealMat (x : Mat) : Prop := ∀ c m, ∃ r : ℝ, x c m = (r : EReal)
def RealWt (w : Wt) : Prop := ∀ d c, ∃ r : ℝ, w d c = (r : EReal)

/-! ## Real numbers inside the extended reals -/

/-- The embedding of the reals carries a finite sum to the sum of the embedded terms. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The word `0xFF800000` has an all-ones exponent, a zero fraction and the sign bit set: minus infinity. -/
theorem negInf_eq : negInf = ⊥ := by
  simp [negInf, Ideal.ofBits, Ideal.ieee]

/-- The zero word denotes zero. -/
theorem zeroW_eq : zeroW = 0 := Ideal.ofBits_zero_f32

/-- The scale's word has exponent field `122`, neither all ones nor zero: it denotes a real number. -/
theorem κ_real : ∃ r : ℝ, κ = (r : EReal) := by
  have hex : ((0x3D5105EC#32 : BitVec 32).extractLsb' 23 8).toNat = 122 := by decide
  unfold κ Ideal.ofBits Ideal.ieee
  simp only [hex]
  rw [if_neg (by norm_num), if_neg (by norm_num)]
  exact ⟨_, rfl⟩

/-- Folding `max` from minus infinity over a non-empty finite family of reals gives a real. -/
theorem fold_max_real {ι : Type*} (t : Finset ι) (ht : t.Nonempty) (f : ι → ℝ) :
    ∃ M : ℝ, t.fold max (⊥ : EReal) (fun i => (f i : EReal)) = (M : EReal) := by
  classical
  induction t using Finset.induction_on with
  | empty => exact absurd ht Finset.not_nonempty_empty
  | insert a s ha ih =>
    rw [Finset.fold_insert ha]
    rcases s.eq_empty_or_nonempty with hs | hs
    · subst hs
      exact ⟨f a, by rw [Finset.fold_empty]; exact max_eq_left bot_le⟩
    · obtain ⟨M, hM⟩ := ih hs
      exact ⟨max (f a) M, by rw [hM]; exact (EReal.coe_strictMono.monotone.map_max).symm⟩

/-- The maximum of a row of real scores is real. -/
theorem rowMax_real (s : Fin 3136 → ℝ) : ∃ M : ℝ, rowMax (fun m => (s m : EReal)) = (M : EReal) := by
  unfold rowMax
  rw [negInf_eq]
  exact fold_max_real Finset.univ ⟨0, Finset.mem_univ _⟩ s

/-- Dividing a weighted sum of reals by a non-zero real, or dividing each weight first: the same. -/
theorem div_sum_eq {ι : Type*} [Fintype ι] (v e : ι → ℝ) (L : ℝ) (hL : L ≠ 0) :
    Ideal.div (∑ m, (v m : EReal) * (e m : EReal)) (L : EReal)
      = ∑ m, Ideal.div (e m : EReal) (L : EReal) * (v m : EReal) := by
  simp only [Ideal.div_coe hL, ← EReal.coe_mul, ← coe_sum]
  congr 1
  rw [Finset.sum_mul]
  exact Finset.sum_congr rfl fun m _ => by ring

/-! ## The two score matrices -/

section Scores

variable (xr : Fin 384 → Fin 3136 → ℝ) (w1r : Fin 384 → Fin 384 → ℝ) (k : ℝ)

/-- The score of positions `n`, `m` as a real number, in the kernel's arrangement. -/
def scoreRe (n m : Fin 3136) : ℝ := ∑ d, ((∑ c, w1r d c * xr c n) * k) * xr d m

theorem scoreK_coe (hk : κ = (k : EReal)) (n m : Fin 3136) :
    scoreK (fun c m => (xr c m : EReal)) (fun d c => (w1r d c : EReal)) n m
      = (scoreRe xr w1r k n m : EReal) := by
  simp only [scoreK, qryT, scoreRe, hk, coe_sum, EReal.coe_mul]

theorem scoreR_coe (hk : κ = (k : EReal)) (n m : Fin 3136) :
    scoreR (fun c m => (xr c m : EReal)) (fun d c => (w1r d c : EReal)) n m
      = (scoreRe xr w1r k n m : EReal) := by
  have h : scoreRe xr w1r k n m = (∑ d, (∑ c, xr c n * w1r d c) * xr d m) * k := by
    unfold scoreRe
    rw [Finset.sum_mul]
    refine Finset.sum_congr rfl fun d _ => ?_
    rw [Finset.sum_congr rfl fun c _ => mul_comm (w1r d c) (xr c n)]
    ring
  rw [h]
  simp only [scoreR, qryR, hk, coe_sum, EReal.coe_mul]

end Scores

/-- On real entries the kernel's arrangement and the reference's give the same result. -/
theorem outK_eq_outR (x : Mat) (w1 w2 : Wt) (hx : RealMat x) (hw1 : RealWt w1) (hw2 : RealWt w2)
    (d : Fin 384) (n : Fin 3136) : outK x w1 w2 d n = outR x w1 w2 d n := by
  choose xr hxr using hx
  choose w1r hw1r using hw1
  choose w2r hw2r using hw2
  obtain ⟨k, hk⟩ := κ_real
  obtain rfl : x = fun c m => (xr c m : EReal) := funext fun c => funext fun m => hxr c m
  obtain rfl : w1 = fun d c => (w1r d c : EReal) := funext fun d => funext fun c => hw1r d c
  obtain rfl : w2 = fun d c => (w2r d c : EReal) := funext fun d => funext fun c => hw2r d c
  -- both score rows are the same row of reals
  have hSK : scoreK (fun c m => (xr c m : EReal)) (fun d c => (w1r d c : EReal)) n
      = fun m => (scoreRe xr w1r k n m : EReal) := funext fun m => scoreK_coe xr w1r k hk n m
  have hSR : scoreR (fun c m => (xr c m : EReal)) (fun d c => (w1r d c : EReal)) n
      = fun m => (scoreRe xr w1r k n m : EReal) := funext fun m => scoreR_coe xr w1r k hk n m
  -- its maximum is real
  obtain ⟨M, hM⟩ := rowMax_real (scoreRe xr w1r k n)
  -- so the unnormalised weights are the same positive reals on both sides
  have hEK : ∀ m, expK (fun c m => (xr c m : EReal)) (fun d c => (w1r d c : EReal)) n m
      = (Real.exp (scoreRe xr w1r k n m - M) : EReal) := by
    intro m
    simp only [expK, hSK, hM, ← EReal.coe_sub, Ideal.exp_coe]
  have hER : ∀ m, expR (fun c m => (xr c m : EReal)) (fun d c => (w1r d c : EReal)) n m
      = (Real.exp (scoreRe xr w1r k n m - M) : EReal) := by
    intro m
    have hmax : max (⊥ : EReal) (M : EReal) = (M : EReal) := max_eq_right bot_le
    simp only [expR, rowMaxR, hSR, hM, negInf_eq, hmax, ← EReal.coe_sub, Ideal.exp_coe]
  -- and so are the row sums, which are positive
  have hLpos : 0 < ∑ m : Fin 3136, Real.exp (scoreRe xr w1r k n m - M) :=
    Finset.sum_pos (fun m _ => Real.exp_pos _) ⟨0, Finset.mem_univ _⟩
  have hDK : denK (fun c m => (xr c m : EReal)) (fun d c => (w1r d c : EReal)) n
      = ((∑ m : Fin 3136, Real.exp (scoreRe xr w1r k n m - M) : ℝ) : EReal) := by
    simp only [denK, hEK, coe_sum]
  have hDR : denR (fun c m => (xr c m : EReal)) (fun d c => (w1r d c : EReal)) n
      = ((∑ m : Fin 3136, Real.exp (scoreRe xr w1r k n m - M) : ℝ) : EReal) := by
    simp only [denR, hER, zeroW_eq, zero_add, coe_sum]
  -- the values are real, and the same in both arrangements
  have hVK : ∀ m, valT (fun c m => (xr c m : EReal)) (fun d c => (w2r d c : EReal)) d m
      = ((∑ c, w2r d c * xr c m : ℝ) : EReal) := by
    intro m
    simp only [valT, coe_sum, EReal.coe_mul]
  have hVR : ∀ m, valR (fun c m => (xr c m : EReal)) (fun d c => (w2r d c : EReal)) m d
      = ((∑ c, w2r d c * xr c m : ℝ) : EReal) := by
    intro m
    rw [Finset.sum_congr rfl fun c _ => mul_comm (w2r d c) (xr c m)]
    simp only [valR, coe_sum, EReal.coe_mul]
  -- what is left is the algebra of one row
  simp only [outK, outKv, outR, wgtR, hEK, hER, hDK, hDR, hVK, hVR]
  exact div_sum_eq _ _ _ hLpos.ne'

end Cert.Attn

end
-- ==== Proof.Bridge3.lean ====
/-
  On arrays of real numbers the kernel's arrangement of attention and the reference's agree, entry by entry:
  each entry is one entry of one batch, where `outK_eq_outR` applies.
-/
import proofs.«426938_j13941463843545_3_alg».proof.Proof.Bridge
import proofs.«426938_j13941463843545_3_alg».proof.Proof.Spec3

noncomputable section

namespace Cert.Attn

open Idealize.ShloMosaic Idealize.ShloMosaic.ValueIdx

/-- On arrays of reals the two arrangements agree. -/
theorem out3K_eq_out3R (x3 : S3.Idx → EReal) (w1 w2 : SW.Idx → EReal) (hx : AllReal x3) (h1 : AllReal w1)
    (h2 : AllReal w2) : out3K x3 w1 w2 = out3R x3 w1 w2 := by
  funext i
  exact outK_eq_outR _ _ _ (fun c m => hx _) (fun d c => h1 _) (fun d c => h2 _) (i 1) (i 2)

end Cert.Attn

end
-- ==== Proof.Finite.lean ====
/-
  The precondition says that every entry of each of the three inputs is smaller in absolute value than plus infinity.
  Over the extended reals an entry is a real number or one of the two infinities, and the absolute value of either
  infinity is plus infinity, which is not smaller than itself: so every entry of every input is a real number.
-/
import proofs.«426938_j13941463843545_3_alg».proof.Pre_finite_inputs
import proofs.«426938_j13941463843545_3_alg».proof.Proof.Spec3
import Idealize.ShloMosaic.Lib.ReduceAll
import Idealize.ShloMosaic.PureOps.Ideal.Laws

noncomputable section

namespace Cert.Pre_finite_inputs.Finite

open Cert.Pre_finite_inputs
open Idealize.ShloMosaic

/-- The shape of a scalar has exactly one index. -/
instance : Subsingleton S_.Idx := ⟨fun _ _ => funext fun d => d.elim0⟩

/-- An extended real whose absolute value `max x (-x)` lies below plus infinity is a real number: at either infinity
    the larger of the number and its negative is plus infinity itself. -/
theorem exists_real_of_abs_lt_top (x : EReal) (h : max x (-x) < ⊤) : ∃ r : ℝ, x = (r : EReal) := by
  induction x using EReal.rec with
  | bot => exact absurd h (by simp)
  | coe r => exact ⟨r, rfl⟩
  | top => exact absurd h (by simp)

/-- The pattern `0x7F800000` (sign clear, exponent all ones, significand zero) denotes plus infinity. -/
theorem ofBits_inf : Ideal.ofBits .f32 0x7F800000#32 = (⊤ : EReal) := by
  simp [Ideal.ofBits, Ideal.ieee]

/-- One input's share of the precondition, for any shape: if the conjunction over all entries of
    "the absolute value of the entry is below plus infinity" is true, every entry is a real number. -/
theorem allReal_of_all_abs_lt_inf {s : Shape} {axes : List (Fin s.rank)} (x : FVec Ideal s .f32)
    (hb : S_.BroadcastsInDim s (![] : Fin 0 → Fin s.rank)) (hr : s.ReducesTo axes S_) (hu : 0 < S_.numel)
    (j : S_.Idx)
    (e : Host.reduce IntOp.andi
          (cmpf .olt (Host.absf x) (broadcastInDim s ![] hb (constant S_ .f32 0x7F800000#32)))
          (constantI S_ 1 1#1) hr hu j = 1#1) :
    Cert.Attn.AllReal x := by
  intro i
  have hi := Host.reduce_andi_all _ _ hr hu j e i
  apply exists_real_of_abs_lt_top
  simp only [cmpf, Host.absf, broadcastInDim, constant, Ideal.hostAbsf_def, Ideal.ofBits_def, Ideal.cmpf_def,
    Ideal.absf_def, Ideal.cmp, ofBits_inf] at hi
  by_contra hlt
  simp [hlt] at hi

variable [Cert.Pre_finite_inputs.Facts]

/-- Under the precondition, read over the extended reals, every entry of every input is a real number. -/
theorem allReal_of_pre (a0 : FVec Ideal S8x384x56x56 .f32) (a1 a2 : FVec Ideal S384x384 .f32)
    (h : Cert.Pre_finite_inputs.fn (F := Ideal) a0 a1 a2 = (fun _ => 1#1)) :
    Cert.Attn.AllReal a0 ∧ Cert.Attn.AllReal a1 ∧ Cert.Attn.AllReal a2 := by
  have h0 := congrFun h ValueIdx.ix0
  dsimp only [Cert.Pre_finite_inputs.fn, andi] at h0
  obtain ⟨h01, h2⟩ := IntOp.andi_eq_one.1 h0
  obtain ⟨h0', h1⟩ := IntOp.andi_eq_one.1 h01
  exact ⟨allReal_of_all_abs_lt_inf a0 _ _ _ _ h0', allReal_of_all_abs_lt_inf a1 _ _ _ _ h1,
    allReal_of_all_abs_lt_inf a2 _ _ _ _ h2⟩

end Cert.Pre_finite_inputs.Finite

end
-- ==== Proof.lean ====
/-
  A fused attention kernel against its plain reference, over the extended reals.

  Both programs take an input of 8 batches by 384 channels by 56 by 56 positions and two 384 by 384 weights. For each
  batch, with the 3136 positions laid out along one axis, the queries are the first weight applied to the input, the
  values the second weight applied to it, the score of two positions the inner product over channels of a query with
  the input, scaled by a fixed constant; each row of scores becomes weights by subtracting its maximum, exponentiating
  and dividing by the row sum; the result is the weighted sum of the values.

  The kernel scales the queries before the inner product and divides by the row sum after the weighted sum, chunk by
  chunk of 256 query positions, keeping the values in a scratch buffer; the reference scales the finished inner product
  and divides each weight first. The kernel's result is `Attn.out3K` of the reshaped input (`KValue.run_value`: the
  frame run, the pieces each grid point writes, the payloads read entry by entry); the reference's is `Attn.out3R`
  (`RefValue.v19_eq`: its host operations read one stage at a time). The two arrangements differ by distributivity of
  multiplication and division over finite sums, which holds on the extended reals when every entry is a real number
  (`Attn.out3K_eq_out3R`); the precondition — every input entry smaller in absolute value than plus infinity — says
  exactly that (`Finite.allReal_of_pre`). Narrowing to a shorter float format is the identity over the extended reals,
  so the idealization rewrote nothing and `preserves` is trivial. The kernel programs' frames are the frame certificate
  of each program; the reference's frame is its run with the result dropped.
-/
import proofs.«426938_j13941463843545_3_alg».proof.Defs
import proofs.«426938_j13941463843545_3_alg».proof.Proof.Gen.Kernel
import proofs.«426938_j13941463843545_3_alg».proof.Proof.Gen.KernelIdeal
import proofs.«426938_j13941463843545_3_alg».proof.Proof.Gen.ReferenceIdeal
import proofs.«426938_j13941463843545_3_alg».proof.Proof.Gen.Pre_finite_inputs
import proofs.«426938_j13941463843545_3_alg».proof.Proof.KernelFrame
import proofs.«426938_j13941463843545_3_alg».proof.Proof.KernelIdealFrame
import proofs.«426938_j13941463843545_3_alg».proof.Proof.Gen.ReferenceIdeal.Run
import proofs.«426938_j13941463843545_3_alg».proof.Proof.Gen.ReferenceIdeal.Read
import proofs.«426938_j13941463843545_3_alg».proof.Proof.RefValue
import proofs.«426938_j13941463843545_3_alg».proof.Proof.KValue
import proofs.«426938_j13941463843545_3_alg».proof.Proof.Bridge3
import proofs.«426938_j13941463843545_3_alg».proof.Proof.Finite
import Idealize.ShloMosaic.Adequacy
import Idealize.ShloMosaic.Init

noncomputable section

namespace Cert.Proof

open Idealize.ShloMosaic Idealize.ShloMosaic.TcCoe Idealize.SL.Sem

/-- A reshape of an array of reals is an array of reals: each entry of the result is an entry of the operand. -/
theorem allReal_shapeCast {s t : Shape} (x : s.Idx → EReal) (h : s.ShapeCasts t) (hx : Cert.Attn.AllReal x) :
    Cert.Attn.AllReal (shapeCast t x h) := fun _ => hx _

section

variable [hKernelIdeal : Cert.KernelIdeal.Facts] [hReferenceIdeal : Cert.ReferenceIdeal.Facts]
  [hPre : Cert.Pre_finite_inputs.Facts]

/-- The reference's result, for real inputs, is the kernel's result function of the same inputs. -/
theorem reference_result (x0 : Cert.ReferenceIdeal.S8x384x56x56.Idx → EReal) (x1 x2 : Cert.ReferenceIdeal.S384x384.Idx → EReal)
    (h0 : Cert.Attn.AllReal x0) (h1 : Cert.Attn.AllReal x1) (h2 : Cert.Attn.AllReal x2) :
    Cert.ReferenceIdeal.Read.val_main_v20 (F := Ideal) x0 x1 x2 = Cert.KernelIdeal.KValue.result x0 x1 x2 := by
  unfold Cert.ReferenceIdeal.Read.val_main_v20 Cert.KernelIdeal.KValue.result
  rw [Cert.ReferenceIdeal.RefValue.v19_eq]
  unfold Cert.ReferenceIdeal.Read.val_main_v0
  rw [Cert.Attn.out3K_eq_out3R _ _ _ (allReal_shapeCast _ _ h0) h1 h2]

end

theorem frame_k [Cert.Kernel.Facts] [Cert.Pre_finite_inputs.Facts] : Cert.frame_Kernel := fun m ρ _ => Cert.Kernel.GenP.frame m ρ

theorem frame_ki [Cert.KernelIdeal.Facts] [Cert.Pre_finite_inputs.Facts] : Cert.frame_KernelIdeal :=
  fun m ρ _ => Cert.KernelIdeal.GenP.frame m ρ

theorem frame_ri [Cert.ReferenceIdeal.Facts] [Cert.Pre_finite_inputs.Facts] : Cert.frame_ReferenceIdeal := fun m ρ _ =>
  (θ_run Cert.ReferenceIdeal.defs _ _).mono (fun _ h c => (h c).2) (Cert.ReferenceIdeal.Value.run (F := Ideal) m ρ)

/-- From memories agreeing on real inputs both programs end with the same result: the kernel at its result function
    of its arguments, the reference at the same function of arguments that agree. -/
theorem algebraic [Cert.KernelIdeal.Facts] [Cert.ReferenceIdeal.Facts] [Cert.Pre_finite_inputs.Facts] :
    Cert.algebraic_KernelIdeal_ReferenceIdeal := by
  intro m ρ m' ρ' hpre hagree
  refine ⟨_, Cert.KernelIdeal.KValue.run_value m ρ, ?_⟩
  refine (θ_run Cert.ReferenceIdeal.defs _ _).mono (fun _ h c => ⟨(h c).1.trans ?_, (h c).2⟩)
    (Cert.ReferenceIdeal.Value.run (F := Ideal) m' ρ')
  obtain ⟨r0, r1, r2⟩ := Cert.Pre_finite_inputs.Finite.allReal_of_pre _ _ _ (hpre c)
  rw [Cert.ReferenceIdeal.Read.val_main_v20_eq, (hagree c).1, (hagree c).2.1, (hagree c).2.2]
  exact reference_result _ _ _ r0 r1 r2

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
